-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S32x100000x64 : Shape := ⟨3, ![32, 100000, 64]⟩
abbrev S2544x1024 : Shape := ⟨2, ![2544, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S32x100000x64 : S_.BroadcastsInDim S32x100000x64 (![] : Fin 0 → Fin S32x100000x64.rank)
  reducesTo_S32x100000x64_S_d0_1_2 : S32x100000x64.ReducesTo [0, 1, 2] S_
  h_S_ : 0 < S_.numel
  bcast_S_S2544x1024 : S_.BroadcastsInDim S2544x1024 (![] : Fin 0 → Fin S2544x1024.rank)
  reducesTo_S2544x1024_S_d0_1 : S2544x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S512 .f32) (main_arg6 : FVec F S512x1 .f32) (main_arg7 : FVec F S1 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1 .f32 := Host.absf main_arg6
  let main_cst_8 : FVec F S_ .f32 := constant S_ .f32 0x7F800000#32
  let main_v25 : FVec F S512x1 .f32 := broadcastInDim S512x1 ![] bcast_S_S512x1 main_cst_8
  let main_v26 : IVec S512x1 1 := cmpf .olt main_v24 main_v25
  let main_c_9 : IVec S_ 1 := constantI S_ 1 1#1
  let main_v27 : IVec S_ 1 := (fun x v => Host.reduce IntOp.andi x v reducesTo_S512x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : IVec S16384x32 32) (main_arg1 : FVec F S32x100000x64 .f32) (main_arg2 : FVec F S2544x1024 .f32) (main_arg3 : FVec F S1024 .f32) (main_arg4 : FVec F S1024x512 .f32) (main_arg5 : FVec F S512 .f32) (main_arg6 : FVec F S512x1 .f32) (main_arg7 : FVec F S1 .f32) : IVec S_ 1 :=
  let main_v0 : FVec F S32x100000x64 .f32 := Host.absf main_arg1
  let main_cst : FVec F S_ .f32 := constant S_ .f32 0x7F800000#32
  let main_v1 : FVec F S32x100000x64 .f32 := broadcastInDim S32x100000x64 ![] bcast_S_S32x100000x64 main_cst
  let main_v2 : IVec S32x100000x64 1 := cmpf .olt main_v0 main_v1
  let main_c : IVec S_ 1 := constantI S_ 1 1#1
  let main_v3 : IVec S_ 1 := (fun x v => Host.reduce IntOp.andi x v reducesTo_S32x100000x64_S_d0_1_2 h_S_) main_v2 main_c
  let main_v4 : FVec F S2544x1024 .f32 := Host.absf main_arg2
  let main_cst_0 : FVec F S_ .f32 := constant S_ .f32 0x7F800000#32
  let main_v5 : FVec F S2544x1024 .f32 := broadcastInDim S2544x1024 ![] bcast_S_S2544x1024 main_cst_0
  let main_v6 : IVec S2544x1024 1 := cmpf .olt main_v4 main_v5
  let main_c_1 : IVec S_ 1 := constantI S_ 1 1#1
  let main_v7 : IVec S_ 1 := (fun x v => Host.reduce IntOp.andi x v reducesTo_S2544x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x512 .f32 := Host.absf main_arg4
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg5 main_arg6 main_arg7 main_v13 main_v16
-- ==== Kernel.lean ====
abbrev S16384x32 : Shape := ⟨2, ![16384, 32]⟩
abbrev S32x100000x64 : Shape := ⟨3, ![32, 100000, 64]⟩
abbrev S2544x1024 : Shape := ⟨2, ![2544, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S32 : Shape := ⟨1, ![32]⟩
abbrev S1x32 : Shape := ⟨2, ![1, 32]⟩
abbrev S_ : Shape := ⟨0, ![]⟩
abbrev S16384x32x1 : Shape := ⟨3, ![16384, 32, 1]⟩
abbrev S16384x32x2 : Shape := ⟨3, ![16384, 32, 2]⟩
abbrev S16384x32x64 : Shape := ⟨3, ![16384, 32, 64]⟩
abbrev S2048x1024 : Shape := ⟨2, ![2048, 1024]⟩
abbrev S496x1024 : Shape := ⟨2, ![496, 1024]⟩
abbrev S512x1024 : Shape := ⟨2, ![512, 1024]⟩
abbrev S1x1024 : Shape := ⟨2, ![1, 1024]⟩
abbrev S1x512 : Shape := ⟨2, ![1, 512]⟩
abbrev S1x1 : Shape := ⟨2, ![1, 1]⟩
abbrev S16384 : Shape := ⟨1, ![16384]⟩
abbrev S512x32x64 : Shape := ⟨3, ![512, 32, 64]⟩
abbrev S512x2048 : Shape := ⟨2, ![512, 2048]⟩
abbrev S512x32 : Shape := ⟨2, ![512, 32]⟩
abbrev S512x512 : Shape := ⟨2, ![512, 512]⟩
abbrev S16384x1 : Shape := ⟨2, ![16384, 1]⟩

abbrev nBuf : Space → Nat
  | .hbm => 54
  | .vmem => 11
  | .smem => 0
  | _ => 0

abbrev bufTy : (tb : Table) → Fin (tcTables nBuf tb) → BufTy
  | .hbm, ⟨0, _⟩ => ⟨S16384x32, .i32⟩
  | .hbm, ⟨1, _⟩ => ⟨S32x100000x64, .f32⟩
  | .hbm, ⟨2, _⟩ => ⟨S2544x1024, .f32⟩
  | .hbm, ⟨3, _⟩ => ⟨S1024, .f32⟩
  | .hbm, ⟨4, _⟩ => ⟨S1024x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S512, .i32⟩
  | .hbm, ⟨9, _⟩ => ⟨S512x1, .f32⟩
  | .hbm, ⟨10, _⟩ => ⟨S32, .i32⟩
  | .hbm, ⟨11, _⟩ => ⟨S1x32, .i32⟩
  | .hbm, ⟨12, _⟩ => ⟨S_, .i32⟩
  | .hbm, ⟨13, _⟩ => ⟨S1x32, .i32⟩
  | .hbm, ⟨14, _⟩ => ⟨S1x32, .i1⟩
  | .hbm, ⟨15, _⟩ => ⟨S_, .i32⟩
  | .hbm, ⟨16, _⟩ => ⟨S1x32, .i32⟩
  | .hbm, ⟨17, _⟩ => ⟨S1x32, .i32⟩
  | .hbm, ⟨18, _⟩ => ⟨S1x32, .i32⟩
  | .hbm, ⟨19, _⟩ => ⟨S_, .i32⟩
  | .hbm, ⟨20, _⟩ => ⟨S16384x32, .i32⟩
  | .hbm, ⟨21, _⟩ => ⟨S16384x32, .i1⟩
  | .hbm, ⟨22, _⟩ => ⟨S_, .i32⟩
  | .hbm, ⟨23, _⟩ => ⟨S16384x32, .i32⟩
  | .hbm, ⟨24, _⟩ => ⟨S16384x32, .i32⟩
  | .hbm, ⟨25, _⟩ => ⟨S16384x32, .i32⟩
  | .hbm, ⟨26, _⟩ => ⟨S16384x32, .i32⟩
  | .hbm, ⟨27, _⟩ => ⟨S16384x32x1, .i32⟩
  | .hbm, ⟨28, _⟩ => ⟨S16384x32x1, .i32⟩
  | .hbm, ⟨29, _⟩ => ⟨S16384x32x2, .i32⟩
  | .hbm, ⟨30, _⟩ => ⟨S16384x32x64, .f32⟩
  | .hbm, ⟨31, _⟩ => ⟨S16384x32x64, .bf16⟩
  | .hbm, ⟨32, _⟩ => ⟨S2048x1024, .f32⟩
  | .hbm, ⟨33, _⟩ => ⟨S496x1024, .f32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S_, .i32⟩
  | .hbm, ⟨38, _⟩ => ⟨S512, .i32⟩
  | .hbm, ⟨39, _⟩ => ⟨S512, .i32⟩
  | .hbm, ⟨40, _⟩ => ⟨S512, .i32⟩
  | .hbm, ⟨41, _⟩ => ⟨S512x1, .i32⟩
  | .hbm, ⟨42, _⟩ => ⟨S512x1024, .f32⟩
  | .hbm, ⟨43, _⟩ => ⟨S512x1024, .f32⟩
  | .hbm, ⟨44, _⟩ => ⟨S512x1024, .f32⟩
  | .hbm, ⟨45, _⟩ => ⟨S2048x1024, .bf16⟩
  | .hbm, ⟨46, _⟩ => ⟨S512x1024, .bf16⟩
  | .hbm, ⟨47, _⟩ => ⟨S1024x512, .bf16⟩
  | .hbm, ⟨48, _⟩ => ⟨S1x1024, .f32⟩
  | .hbm, ⟨49, _⟩ => ⟨S1x512, .f32⟩
  | .hbm, ⟨50, _⟩ => ⟨S1x512, .f32⟩
  | .hbm, ⟨51, _⟩ => ⟨S1x1, .f32⟩
  | .hbm, ⟨52, _⟩ => ⟨S16384, .f32⟩
  | .hbm, ⟨53, _⟩ => ⟨S16384x1, .f32⟩
  | .local _ .vmem, ⟨0, _⟩ => ⟨S512x32x64, .bf16⟩
  | .local _ .vmem, ⟨1, _⟩ => ⟨S512x32x64, .bf16⟩
  | .local _ .vmem, ⟨2, _⟩ => ⟨S2048x1024, .bf16⟩
  | .local _ .vmem, ⟨3, _⟩ => ⟨S512x1024, .bf16⟩
  | .local _ .vmem, ⟨4, _⟩ => ⟨S1x1024, .f32⟩
  | .local _ .vmem, ⟨5, _⟩ => ⟨S1024x512, .bf16⟩
  | .local _ .vmem, ⟨6, _⟩ => ⟨S1x512, .f32⟩
  | .local _ .vmem, ⟨7, _⟩ => ⟨S1x512, .f32⟩
  | .local _ .vmem, ⟨8, _⟩ => ⟨S1x1, .f32⟩
  | .local _ .vmem, ⟨9, _⟩ => ⟨S512, .f32⟩
  | .local _ .vmem, ⟨10, _⟩ => ⟨S512, .f32⟩
  | _, _ => ⟨S16384x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x32x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S32_S1x32_1 : S32.BroadcastsInDim S1x32 (![1] : Fin 1 → Fin S1x32.rank)
  bcast_S_S1x32 : S_.BroadcastsInDim S1x32 (![] : Fin 0 → Fin S1x32.rank)
  bcast_S_S16384x32 : S_.BroadcastsInDim S16384x32 (![] : Fin 0 → Fin S16384x32.rank)
  bcast_S1x32_S16384x32_0_1 : S1x32.BroadcastsInDim S16384x32 (![0, 1] : Fin 2 → Fin S16384x32.rank)
  bcast_S16384x32_S16384x32x1_0_1 : S16384x32.BroadcastsInDim S16384x32x1 (![0, 1] : Fin 2 → Fin S16384x32x1.rank)
  concatenates_S16384x32x1_S16384x32x1_S16384x32x2_d2 : Shape.Concatenates [S16384x32x1, S16384x32x1] S16384x32x2 2
  bitsLt_bf16_f32 : FTy.bits .bf16 < FTy.bits .f32
  slices_S2544x1024_S2048x1024_0_0 : S2544x1024.Slices ![0, 0] S2048x1024
  slices_S2544x1024_S496x1024_2048_0 : S2544x1024.Slices ![2048, 0] S496x1024
  bcast_S_S512 : S_.BroadcastsInDim S512 (![] : Fin 0 → Fin S512.rank)
  bcast_S512_S512x1_0 : S512.BroadcastsInDim S512x1 (![0] : Fin 1 → Fin S512x1.rank)
  bcast_S512x1_S512x1024_0_1 : S512x1.BroadcastsInDim S512x1024 (![0, 1] : Fin 2 → Fin S512x1024.rank)
  shapeCasts_S1024_S1x1024 : S1024.ShapeCasts S1x1024
  shapeCasts_S512_S1x512 : S512.ShapeCasts S1x512
  shapeCasts_S512x1_S1x512 : S512x1.ShapeCasts S1x512
  shapeCasts_S1_S1x1 : S1.ShapeCasts S1x1
  inb_S512x32x64_S512x32x64_0_0_0 : ∀ a, (![0, 0, 0] : Fin 3 → Nat) a + S512x32x64.size a ≤ S512x32x64.size a
  h_S512x32x64 : 0 < S512x32x64.numel
  shapeCasts_S512x32x64_S512x32x64 : S512x32x64.ShapeCasts S512x32x64
  shapeCasts_S512x32x64_S512x2048 : S512x32x64.ShapeCasts S512x2048
  rotates_S512x32x64_d1 : S512x32x64.Rotates 1 none
  reduces_S512x32x64_S512x32 : S512x32x64.Reduces [2] S512x32
  concatenates_S512x32_S512x32_S512x32_S512x32_S512x32_S512x32_S512x32_S512x32_S512x32_S512x32_S512x32_S512x32_S512x32_S512x32_S512x32_S512x32_S512x512_d1 : Shape.Concatenates [S512x32, S512x32, S512x32, S512x32, S512x32, S512x32, S512x32, S512x32, S512x32, S512x32, S512x32, S512x32, S512x32, S512x32, S512x32, S512x32] S512x512 1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512 : S512x512.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  shapeCasts_S512x1_S512 : S512x1.ShapeCasts S512
  inb_S512_S512_0 : ∀ a, (![0] : Fin 1 → Nat) a + S512.size a ≤ S512.size a
  h_S512 : 0 < S512.numel
  shapeCasts_S16384_S16384x1 : S16384.ShapeCasts S16384x1
  gather_S32x100000x64_S16384x32x2_S16384x32x64_2_01_n_n_01_2_1164_wf : GatherDims.WF S32x100000x64 S16384x32x2 S16384x32x64 [2] [0, 1] [] [0, 1] [] 2 ![1, 1, 64]
  gather_S496x1024_S512x1_S512x1024_1_0_n_n_0_1_11024_wf : GatherDims.WF S496x1024 S512x1 S512x1024 [1] [0] [] [0] [] 1 ![1, 1024]
  dot_S512x2048_S2048x1024_S512x1024_1_0_0_1_n_n_wf : DotDims.WF S512x2048 S2048x1024 S512x1024 [1] [0] [0] [1] [] []
  dot_S512x512_S512x1024_S512x1024_1_0_0_1_n_n_wf : DotDims.WF S512x512 S512x1024 S512x1024 [1] [0] [0] [1] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32x64.size a ≤ S16384x32x64.size a
  hwx0_0 : ∀ i : grid0.Coords, EltTy.bits .bf16 = 32 ∨ (Rect.block (s := S16384x32x64) S512x32x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S16384.size a
  hwx0_8 : ∀ i : grid0.Coords, EltTy.bits .f32 = 32 ∨ (Rect.block (s := S16384) S512.size (cc0_transform_8 i) (hinb0_8 i)).WholeWords (EltTy.packing .f32)

variable [Facts₀]

def gather_S32x100000x64_S16384x32x2_S16384x32x64_2_01_n_n_01_2_1164 : GatherDims S32x100000x64 S16384x32x2 S16384x32x64 where
  offsetDims := [2]
  collapsedSliceDims := [0, 1]
  operandBatchingDims := []
  startIndicesBatchingDims := []
  startIndexMap := [0, 1]
  indexVectorDim := 2
  sliceSizes := ![1, 1, 64]
  wf := gather_S32x100000x64_S16384x32x2_S16384x32x64_2_01_n_n_01_2_1164_wf
def gather_S496x1024_S512x1_S512x1024_1_0_n_n_0_1_11024 : GatherDims S496x1024 S512x1 S512x1024 where
  offsetDims := [1]
  collapsedSliceDims := [0]
  operandBatchingDims := []
  startIndicesBatchingDims := []
  startIndexMap := [0]
  indexVectorDim := 1
  sliceSizes := ![1, 1024]
  wf := gather_S496x1024_S512x1_S512x1024_1_0_n_n_0_1_11024_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v17) S512x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x32 : Shape := ⟨2, ![16384, 32]⟩
abbrev S32x100000x64 : Shape := ⟨3, ![32, 100000, 64]⟩
abbrev S2544x1024 : Shape := ⟨2, ![2544, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S496 : Shape := ⟨1, ![496]⟩
abbrev S32 : Shape := ⟨1, ![32]⟩
abbrev S1x32 : Shape := ⟨2, ![1, 32]⟩
abbrev S_ : Shape := ⟨0, ![]⟩
abbrev S16384x32x1 : Shape := ⟨3, ![16384, 32, 1]⟩
abbrev S16384x32x2 : Shape := ⟨3, ![16384, 32, 2]⟩
abbrev S16384x32x64 : Shape := ⟨3, ![16384, 32, 64]⟩
abbrev S16384x32x32 : Shape := ⟨3, ![16384, 32, 32]⟩
abbrev S496x1 : Shape := ⟨2, ![496, 1]⟩
abbrev S496x2 : Shape := ⟨2, ![496, 2]⟩
abbrev S16384x496 : Shape := ⟨2, ![16384, 496]⟩
abbrev S16384x2048 : Shape := ⟨2, ![16384, 2048]⟩
abbrev S16384x2544 : Shape := ⟨2, ![16384, 2544]⟩
abbrev S16384x1024 : Shape := ⟨2, ![16384, 1024]⟩
abbrev S1x1024 : Shape := ⟨2, ![1, 1024]⟩
abbrev S16384x512 : Shape := ⟨2, ![16384, 512]⟩
abbrev S1x512 : Shape := ⟨2, ![1, 512]⟩
abbrev S16384x1 : Shape := ⟨2, ![16384, 1]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S16384x32, .i32⟩
  | .hbm, ⟨1, _⟩ => ⟨S32x100000x64, .f32⟩
  | .hbm, ⟨2, _⟩ => ⟨S2544x1024, .f32⟩
  | .hbm, ⟨3, _⟩ => ⟨S1024, .f32⟩
  | .hbm, ⟨4, _⟩ => ⟨S1024x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S496, .i32⟩
  | .hbm, ⟨9, _⟩ => ⟨S496, .i1⟩
  | .hbm, ⟨10, _⟩ => ⟨S496, .i32⟩
  | .hbm, ⟨11, _⟩ => ⟨S496, .i1⟩
  | .hbm, ⟨12, _⟩ => ⟨S32, .i32⟩
  | .hbm, ⟨13, _⟩ => ⟨S1x32, .i32⟩
  | .hbm, ⟨14, _⟩ => ⟨S_, .i32⟩
  | .hbm, ⟨15, _⟩ => ⟨S1x32, .i32⟩
  | .hbm, ⟨16, _⟩ => ⟨S1x32, .i1⟩
  | .hbm, ⟨17, _⟩ => ⟨S_, .i32⟩
  | .hbm, ⟨18, _⟩ => ⟨S1x32, .i32⟩
  | .hbm, ⟨19, _⟩ => ⟨S1x32, .i32⟩
  | .hbm, ⟨20, _⟩ => ⟨S1x32, .i32⟩
  | .hbm, ⟨21, _⟩ => ⟨S_, .i32⟩
  | .hbm, ⟨22, _⟩ => ⟨S16384x32, .i32⟩
  | .hbm, ⟨23, _⟩ => ⟨S16384x32, .i1⟩
  | .hbm, ⟨24, _⟩ => ⟨S_, .i32⟩
  | .hbm, ⟨25, _⟩ => ⟨S16384x32, .i32⟩
  | .hbm, ⟨26, _⟩ => ⟨S16384x32, .i32⟩
  | .hbm, ⟨27, _⟩ => ⟨S16384x32, .i32⟩
  | .hbm, ⟨28, _⟩ => ⟨S16384x32, .i32⟩
  | .hbm, ⟨29, _⟩ => ⟨S16384x32x1, .i32⟩
  | .hbm, ⟨30, _⟩ => ⟨S16384x32x1, .i32⟩
  | .hbm, ⟨31, _⟩ => ⟨S16384x32x2, .i32⟩
  | .hbm, ⟨32, _⟩ => ⟨S16384x32x64, .f32⟩
  | .hbm, ⟨33, _⟩ => ⟨S16384x32x32, .f32⟩
  | .hbm, ⟨34, _⟩ => ⟨S_, .i32⟩
  | .hbm, ⟨35, _⟩ => ⟨S496, .i32⟩
  | .hbm, ⟨36, _⟩ => ⟨S496, .i32⟩
  | .hbm, ⟨37, _⟩ => ⟨S496, .i32⟩
  | .hbm, ⟨38, _⟩ => ⟨S_, .i32⟩
  | .hbm, ⟨39, _⟩ => ⟨S496, .i32⟩
  | .hbm, ⟨40, _⟩ => ⟨S496, .i32⟩
  | .hbm, ⟨41, _⟩ => ⟨S496, .i32⟩
  | .hbm, ⟨42, _⟩ => ⟨S496x1, .i32⟩
  | .hbm, ⟨43, _⟩ => ⟨S496x1, .i32⟩
  | .hbm, ⟨44, _⟩ => ⟨S496x2, .i32⟩
  | .hbm, ⟨45, _⟩ => ⟨S16384x496, .f32⟩
  | .hbm, ⟨46, _⟩ => ⟨S16384x2048, .f32⟩
  | .hbm, ⟨47, _⟩ => ⟨S16384x2544, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x512, .f32⟩
  | .hbm, ⟨56, _⟩ => ⟨S1x512, .f32⟩
  | .hbm, ⟨57, _⟩ => ⟨S16384x512, .f32⟩
  | .hbm, ⟨58, _⟩ => ⟨S16384x512, .f32⟩
  | .hbm, ⟨59, _⟩ => ⟨S_, .f32⟩
  | .hbm, ⟨60, _⟩ => ⟨S16384x512, .f32⟩
  | .hbm, ⟨61, _⟩ => ⟨S16384x512, .f32⟩
  | .hbm, ⟨62, _⟩ => ⟨S16384x1, .f32⟩
  | .hbm, ⟨63, _⟩ => ⟨S1x1, .f32⟩
  | .hbm, ⟨64, _⟩ => ⟨S16384x1, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | _, _ => ⟨S16384x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_v0 : Ref sig .tc := ⟨.hbm, 12, rfl⟩
abbrev main_v1 : Ref sig .tc := ⟨.hbm, 13, rfl⟩
abbrev main_c_3 : Ref sig .tc := ⟨.hbm, 14, rfl⟩
abbrev main_v2 : Ref sig .tc := ⟨.hbm, 15, rfl⟩
abbrev main_v3 : Ref sig .tc := ⟨.hbm, 16, rfl⟩
abbrev main_c_4 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_5 : Ref sig .tc := ⟨.hbm, 21, rfl⟩
abbrev main_v7 : Ref sig .tc := ⟨.hbm, 22, rfl⟩
abbrev main_v8 : Ref sig .tc := ⟨.hbm, 23, rfl⟩
abbrev main_c_6 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_7 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_8 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_cst : Ref sig .tc := ⟨.hbm, 52, rfl⟩
abbrev main_call0_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call1_cst : Ref sig .tc := ⟨.hbm, 59, rfl⟩
abbrev main_call1_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S_S1x32 : S_.BroadcastsInDim S1x32 (![] : Fin 0 → Fin S1x32.rank)
  bcast_S_S16384x32 : S_.BroadcastsInDim S16384x32 (![] : Fin 0 → Fin S16384x32.rank)
  bcast_S1x32_S16384x32_0_1 : S1x32.BroadcastsInDim S16384x32 (![0, 1] : Fin 2 → Fin S16384x32.rank)
  bcast_S16384x32_S16384x32x1_0_1 : S16384x32.BroadcastsInDim S16384x32x1 (![0, 1] : Fin 2 → Fin S16384x32x1.rank)
  concatenates_S16384x32x1_S16384x32x1_S16384x32x2_d2 : Shape.Concatenates [S16384x32x1, S16384x32x1] S16384x32x2 2
  bcast_S_S496 : S_.BroadcastsInDim S496 (![] : Fin 0 → Fin S496.rank)
  bcast_S496_S496x1_0 : S496.BroadcastsInDim S496x1 (![0] : Fin 1 → Fin S496x1.rank)
  concatenates_S496x1_S496x1_S496x2_d1 : Shape.Concatenates [S496x1, S496x1] S496x2 1
  shapeCasts_S16384x32x64_S16384x2048 : S16384x32x64.ShapeCasts S16384x2048
  concatenates_S16384x2048_S16384x496_S16384x2544_d1 : Shape.Concatenates [S16384x2048, S16384x496] S16384x2544 1
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  gather_S32x100000x64_S16384x32x2_S16384x32x64_2_01_n_n_01_2_1164_wf : GatherDims.WF S32x100000x64 S16384x32x2 S16384x32x64 [2] [0, 1] [] [0, 1] [] 2 ![1, 1, 64]
  dot_S16384x32x64_S16384x32x64_S16384x32x32_2_2_1_1_0_0_wf : DotDims.WF S16384x32x64 S16384x32x64 S16384x32x32 [2] [2] [1] [1] [0] [0]
  gather_S16384x32x32_S496x2_S16384x496_0_12_n_n_12_1_1638411_wf : GatherDims.WF S16384x32x32 S496x2 S16384x496 [0] [1, 2] [] [1, 2] [] 1 ![16384, 1, 1]
  dot_S16384x2544_S2544x1024_S16384x1024_1_0_0_1_n_n_wf : DotDims.WF S16384x2544 S2544x1024 S16384x1024 [1] [0] [0] [1] [] []
  dot_S16384x1024_S1024x512_S16384x512_1_0_0_1_n_n_wf : DotDims.WF S16384x1024 S1024x512 S16384x512 [1] [0] [0] [1] [] []
  dot_S16384x512_S512x1_S16384x1_1_0_0_1_n_n_wf : DotDims.WF S16384x512 S512x1 S16384x1 [1] [0] [0] [1] [] []

variable [Facts₀]

def gather_S32x100000x64_S16384x32x2_S16384x32x64_2_01_n_n_01_2_1164 : GatherDims S32x100000x64 S16384x32x2 S16384x32x64 where
  offsetDims := [2]
  collapsedSliceDims := [0, 1]
  operandBatchingDims := []
  startIndicesBatchingDims := []
  startIndexMap := [0, 1]
  indexVectorDim := 2
  sliceSizes := ![1, 1, 64]
  wf := gather_S32x100000x64_S16384x32x2_S16384x32x64_2_01_n_n_01_2_1164_wf
def dot_S16384x32x64_S16384x32x64_S16384x32x32_2_2_1_1_0_0 : DotDims S16384x32x64 S16384x32x64 S16384x32x32 where
  lhsContracting := [2]
  rhsContracting := [2]
  lhsNonContracting := [1]
  rhsNonContracting := [1]
  lhsBatch := [0]
  rhsBatch := [0]
  wf := dot_S16384x32x64_S16384x32x64_S16384x32x32_2_2_1_1_0_0_wf
def gather_S16384x32x32_S496x2_S16384x496_0_12_n_n_12_1_1638411 : GatherDims S16384x32x32 S496x2 S16384x496 where
  offsetDims := [0]
  collapsedSliceDims := [1, 2]
  operandBatchingDims := []
  startIndicesBatchingDims := []
  startIndexMap := [1, 2]
  indexVectorDim := 1
  sliceSizes := ![16384, 1, 1]
  wf := gather_S16384x32x32_S496x2_S16384x496_0_12_n_n_12_1_1638411_wf
def dot_S16384x2544_S2544x1024_S16384x1024_1_0_0_1_n_n : DotDims S16384x2544 S2544x1024 S16384x1024 where
  lhsContracting := [1]
  rhsContracting := [0]
  lhsNonContracting := [0]
  rhsNonContracting := [1]
  lhsBatch := []
  rhsBatch := []
  wf := dot_S16384x2544_S2544x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x1_S16384x1_1_0_0_1_n_n : DotDims S16384x512 S512x1 S16384x1 where
  lhsContracting := [1]
  rhsContracting := [0]
  lhsNonContracting := [0]
  rhsNonContracting := [1]
  lhsBatch := []
  rhsBatch := []
  wf := dot_S16384x512_S512x1_S16384x1_1_0_0_1_n_n_wf

class Facts : Prop extends Facts₀ where

variable [Facts]
-- ==== Proof.Spec.lean ====
/-
  The mathematics of the two programs, free of shapes: one example's embeddings as a function
  `e : Fin 32 → Fin 64 → EReal` (field, coordinate), the first layer in the reference's arrangement
  (`layer1R`: the 2048 flattened embedding entries followed by the 496 inner products of the pairs
  `I0 p < I1 p`, against the rows of one weight matrix) and in the kernel's arrangement (`layer1K`:
  the flattened entries against the first 2048 rows, and the 512 "rolled" inner products
  `⟨e_a, e_{(a + o) mod 32}⟩`, `q = 32 (o − 1) + a`, against a re-ordered and masked copy of the last
  496 rows), and the rest of the network (`head`: relu, second layer, relu, the last layer as a
  weighted sum, the logistic function).
-/
import Idealize.ShloMosaic.PureOps.Ideal
import Idealize.ShloMosaic.Lib.ValueIdx

noncomputable section

open scoped BigOperators

namespace PNN

open Idealize.ShloMosaic

/-- The inner product of the embeddings of fields `f` and `g`. -/
def ip (e : Fin 32 → Fin 64 → EReal) (f g : Fin 32) : EReal := ∑ d : Fin 64, e f d * e g d

/-- Entry `k` of the flattened embeddings: field `k / 64`, coordinate `k % 64`. -/
def flat (e : Fin 32 → Fin 64 → EReal) (k : Fin 2048) : EReal :=
  e ⟨k.val / 64, by have := k.isLt; omega⟩ ⟨k.val % 64, Nat.mod_lt _ (by decide)⟩

/-- The field the rolled product `q = 32 (o − 1) + a` starts from: `a = q % 32`. -/
def rollA (q : Fin 512) : Fin 32 := ⟨q.val % 32, Nat.mod_lt _ (by decide)⟩
/-- The field it pairs it with: `(a + o) % 32`, `o = q / 32 + 1`. -/
def rollB (q : Fin 512) : Fin 32 := ⟨(q.val % 32 + q.val / 32 + 1) % 32, Nat.mod_lt _ (by decide)⟩

/-- The reference's feature `k`: a flattened entry below 2048, the pair `k − 2048`'s inner product from there on. -/
def feat (e : Fin 32 → Fin 64 → EReal) (I0 I1 : Fin 496 → Fin 32) (k : Fin 2544) : EReal :=
  if h : k.val < 2048 then flat e ⟨k.val, h⟩
  else ip e (I0 ⟨k.val - 2048, by have := k.isLt; omega⟩) (I1 ⟨k.val - 2048, by have := k.isLt; omega⟩)

/-- The first layer before its relu, the reference's way: all 2544 features against one matrix, plus the bias. -/
def layer1R (e : Fin 32 → Fin 64 → EReal) (W1 : Fin 2544 → Fin 1024 → EReal) (b1 : Fin 1024 → EReal)
    (I0 I1 : Fin 496 → Fin 32) (j : Fin 1024) : EReal :=
  (∑ k : Fin 2544, feat e I0 I1 k * W1 k j) + b1 j

/-- The first layer before its relu, the kernel's way: the flattened entries against `We`, plus the 512 rolled
    inner products against `Wr`, plus the bias. -/
def layer1K (e : Fin 32 → Fin 64 → EReal) (We : Fin 2048 → Fin 1024 → EReal) (Wr : Fin 512 → Fin 1024 → EReal)
    (b1 : Fin 1024 → EReal) (j : Fin 1024) : EReal :=
  ((∑ k : Fin 2048, flat e k * We k j) + (∑ q : Fin 512, ip e (rollA q) (rollB q) * Wr q j)) + b1 j

/-- From the first layer's pre-activations to the output: relu, the second layer, relu, the weighted sum with the
    last layer's column, its bias, the logistic function. -/
def head (h1 : Fin 1024 → EReal) (W2 : Fin 1024 → Fin 512 → EReal) (b2 : Fin 512 → EReal) (w3 : Fin 512 → EReal)
    (b3 : EReal) : EReal :=
  Ideal.logistic ((∑ k : Fin 512, max ((∑ j : Fin 1024, max (h1 j) 0 * W2 j k) + b2 k) 0 * w3 k) + b3)

end PNN

end
-- ==== Proof.KernelPayload.lean ====
/-
  What the kernel's body stores for row `r` of its block, as the network's output in the kernel's arrangement,
  over the blocks the body loads: the example's embeddings `x0 (r, f, d)`, the two first-layer matrices `x1`, `x2`,
  the bias rows `x3`, `x5`, `x7`, the second layer's matrix `x4` and the last layer's row `x6`.
-/
import proofs.«429863_j12421045420605_3_alg».proof.Proof.Gen.KernelIdeal.Frame
import proofs.«429863_j12421045420605_3_alg».proof.Proof.Spec
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

noncomputable section

open scoped BigOperators

namespace Cert.KernelIdeal.KV

open Idealize.ShloMosaic Idealize.ShloMosaic.ValueIdx Cert.KernelIdeal Cert.KernelIdeal.Gen

/-! ## A plain matrix product into the zero accumulator, read at an entry -/

/-- The left operand's index at output entry `(a, b)` and contraction coordinate `c` is `(a, c)`. -/
theorem plain_lhsIdx {m k n : Nat} (a : Fin m) (b : Fin n) (c : Fin k) :
    (DotDims.plain m k n).lhsIdx (ix2 a b) ((contrEquiv1 (DotDims.plain m k n) k rfl rfl).symm c) = ix2 a c := by
  refine Shape.idx_ext₂ ?_ ?_
  · rfl
  · exact ((DotDims.plain m k n).lhsIdx_val_of_single (cl := 1) rfl _ _).trans
      (contrEquiv1_symm_val (DotDims.plain m k n) k rfl rfl c)

/-- The right operand's index there is `(c, b)`. -/
theorem plain_rhsIdx {m k n : Nat} (a : Fin m) (b : Fin n) (c : Fin k) :
    (DotDims.plain m k n).rhsIdx (ix2 a b) ((contrEquiv1 (DotDims.plain m k n) k rfl rfl).symm c) = ix2 c b := by
  refine Shape.idx_ext₂ ?_ ?_
  · exact ((DotDims.plain m k n).rhsIdx_val_of_single (cr := 0) rfl _ _).trans
      (contrEquiv1_symm_val (DotDims.plain m k n) k rfl rfl c)
  · rfl

/-- So the product into the zero splat at `(a, b)` is `∑ c, A (a, c) * B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  rw [plain_lhsIdx, plain_rhsIdx]

/-! ## The rolled inner products -/

/-- The sums over the last axis of `v` times `v` rotated along the fields by `32 − o`, at `(r, a)`: the inner product of
    fields `a` and `(a + o) % 32` of example `r`. -/
theorem rolled_apply (v : FVec Ideal S512x32x64 .bf16) (n : BitVec 32) (o : Nat) (ho : 1 ≤ o ∧ o ≤ 32)
    (hn : n.toNat = 32 - o) (hrot : S512x32x64.Rotates 1 none) (hlt : FTy.bits .bf16 < FTy.bits .f32)
    (hred : S512x32x64.Reduces [2] S512x32) (hφ : FKind.Formats .f32)
    (hacc : (0x00000000#32 : BitVec 32) = FKind.add.neutral .f32 hφ) (r : Fin 512) (a : Fin 32) :
    multiReduction (F := Ideal) .add [2] S512x32 (extf .f32 (mulf v (dynamicRotate 1 n none v hrot)) hlt) 0x00000000#32
        hred hφ hacc (ix2 r a)
      = ∑ d : Fin 64, v (ix3 r a d) * v (ix3 r ⟨(a.val + o) % 32, Nat.mod_lt _ (by decide)⟩ d) := by
  refine (Ideal.multiReduction_add_single _ _ hred hφ hacc (ix2 r a)).trans ?_
  refine Finset.sum_congr rfl fun d _ => ?_
  have hl : hred.lift (ix2 r a) d = ix3 r a d := by
    funext b
    match b with
    | ⟨0, _⟩ => rfl
    | ⟨1, _⟩ => rfl
    | ⟨2, _⟩ => rfl
  rw [hl]
  show v (ix3 r a d) * dynamicRotate 1 n none v hrot (ix3 r a d) = _
  rw [dynamicRotate_apply 1 n v hrot (ix3 r a d) (ix3 r ⟨(a.val + o) % 32, Nat.mod_lt _ (by decide)⟩ d)]
  intro b
  match b with
  | ⟨0, _⟩ => rfl
  | ⟨1, _⟩ =>
    show (a.val + o) % 32 = (a.val + 32 - n.toNat % 32) % 32
    rw [hn]; omega
  | ⟨2, _⟩ => rfl

/-- The rolled products for the rotation amount `31 − i`, `i = 0 … 15`: shift `o = i + 1`. -/
def rolledAt (v : FVec Ideal S512x32x64 .bf16) (hrot : S512x32x64.Rotates 1 none) (hlt : FTy.bits .bf16 < FTy.bits .f32)
    (hred : S512x32x64.Reduces [2] S512x32) (hφ : FKind.Formats .f32)
    (hacc : (0x00000000#32 : BitVec 32) = FKind.add.neutral .f32 hφ) (i : Fin 16) : FVec Ideal S512x32 .f32 :=
  multiReduction (F := Ideal) .add [2] S512x32
    (extf .f32 (mulf v (dynamicRotate 1 (BitVec.ofNat 32 (31 - i.val)) none v hrot)) hlt) 0x00000000#32 hred hφ hacc

/-- Their concatenation along the second axis at `(r, q)`: piece `q / 32` at column `q % 32`, the inner product of
    fields `q % 32` and `(q % 32 + q / 32 + 1) % 32`. -/
theorem concat_rolled_apply (v : FVec Ideal S512x32x64 .bf16) (hrot : S512x32x64.Rotates 1 none)
    (hlt : FTy.bits .bf16 < FTy.bits .f32) (hred : S512x32x64.Reduces [2] S512x32) (hφ : FKind.Formats .f32)
    (hacc : (0x00000000#32 : BitVec 32) = FKind.add.neutral .f32 hφ)
    (hcat : Shape.Concatenates ((List.ofFn fun i : Fin 16 =>
      (⟨S512x32, rolledAt v hrot hlt hred hφ hacc i⟩ : (s : Shape) × (s.Idx → Ideal .f32))).map (·.1)) S512x512 1)
    (r q : Fin 512) :
    concatenate S512x512 1 (List.ofFn fun i : Fin 16 =>
      (⟨S512x32, rolledAt v hrot hlt hred hφ hacc i⟩ : (s : Shape) × (s.Idx → Ideal .f32))) hcat (ix2 r q)
      = ∑ d : Fin 64, v (ix3 r (PNN.rollA q) d) * v (ix3 r (PNN.rollB q) d) := by
  have hq := q.isLt
  refine (concatenate_ofFn_apply (1 : Fin S512x512.rank) _ hcat rfl 32 rfl (ix2 r q) ⟨q.val / 32, by omega⟩ rfl
    (ix2 r (PNN.rollA q)) rfl ?_).trans ?_
  · intro b hb
    match b with
    | ⟨0, _⟩ => rfl
    | ⟨1, _⟩ => exact absurd rfl hb
  · refine (rolled_apply v _ (q.val / 32 + 1) ⟨by omega, by omega⟩ ?_ hrot hlt hred hφ hacc r (PNN.rollA q)).trans ?_
    · show (BitVec.ofNat 32 (31 - q.val / 32)).toNat = 32 - (q.val / 32 + 1)
      rw [BitVec.toNat_ofNat]
      have : 31 - q.val / 32 < 2 ^ 32 := by omega
      rw [Nat.mod_eq_of_lt this]; omega
    · have hB : (⟨((PNN.rollA q).val + (q.val / 32 + 1)) % 32, Nat.mod_lt _ (by decide)⟩ : Fin 32) = PNN.rollB q :=
        Fin.ext (by show (q.val % 32 + (q.val / 32 + 1)) % 32 = (q.val % 32 + q.val / 32 + 1) % 32; rw [Nat.add_assoc])
      rw [hB]

/-! ## The body's values, from the loaded blocks -/

/-- The loaded embeddings block cast to its own shape is itself. -/
theorem pay2_eq (x0 : Vec Ideal S512x32x64 .bf16) : k0_pay2 (F := Ideal) x0 = x0 := by
  unfold k0_pay2; exact shapeCast_self _ _

/-- The block flattened to [512, 2048], at `(r, k)`: field `k / 64`, coordinate `k % 64` of example `r`. -/
theorem pay3_apply (x0 : Vec Ideal S512x32x64 .bf16) (r : Fin 512) (k : Fin 2048) :
    k0_pay3 (F := Ideal) x0 (ix2 r k) = PNN.flat (fun f d => x0 (ix3 r f d)) k := by
  have hk := k.isLt
  unfold k0_pay3
  refine (shapeCast_apply _ _ (ix2 r k) (ix3 r ⟨k.val / 64, by omega⟩ ⟨k.val % 64, Nat.mod_lt _ (by decide)⟩) ?_).trans ?_
  · rw [Shape.rowMajor_val_three, Shape.rowMajor_val_two]
    show (r.val * 32 + k.val / 64) * 64 + k.val % 64 = r.val * 2048 + k.val
    omega
  · rw [pay2_eq]; rfl

/-- The first layer before its bias, at `(r, j)`: the flattened entries against `x1`'s column `j` plus the rolled inner
    products against `x2`'s column `j`. -/
theorem pay13_apply (x0 : Vec Ideal S512x32x64 .bf16) (x1 : Vec Ideal S2048x1024 .bf16) (x2 : Vec Ideal S512x1024 .bf16)
    (r : Fin 512) (j : Fin 1024) :
    k0_pay13 (F := Ideal) (k0_pay2 x0) (k0_pay3 x0) (k0_pay4 x0) (k0_pay5 x0) (k0_pay6 x0) (k0_pay7 x0) (k0_pay8 x0)
        (k0_pay9 x0) (k0_pay10 x0) (k0_pay11 x0) (k0_pay12 x0) x1 x2 (ix2 r j)
      = (∑ k : Fin 2048, PNN.flat (fun f d => x0 (ix3 r f d)) k * x1 (ix2 k j))
        + ∑ q : Fin 512, PNN.ip (fun f d => x0 (ix3 r f d)) (PNN.rollA q) (PNN.rollB q) * x2 (ix2 q j) := by
  unfold k0_pay13
  refine (addf_apply _ _ _).trans ?_
  refine congrArg₂ (· + ·) ?_ ?_
  · refine (matmul_plain_zero_apply (m := 512) (k := 2048) (n := 1024) none _ _ r j).trans ?_
    refine Finset.sum_congr rfl fun k _ => ?_
    refine congrArg₂ (· * ·) (pay3_apply x0 r k) ?_
    exact congrFun (shapeCast_self _ _) _
  · refine (matmul_plain_zero_apply (m := 512) (k := 512) (n := 1024) none _ _ r j).trans ?_
    refine Finset.sum_congr rfl fun q _ => ?_
    refine congrArg₂ (· * ·) ?_ (congrFun (shapeCast_self _ _) _)
    refine (truncf_apply (φ := .f32) (ψ := .bf16) _ Gen.bitsLt_bf16_f32 (ix2 r q)).trans ?_
    refine (concat_rolled_apply (k0_pay2 x0) Gen.rotates_S512x32x64_d1 Gen.bitsLt_bf16_f32 Gen.reduces_S512x32x64_S512x32
      (.inl rfl) rfl
      Gen.concatenates_S512x32_S512x32_S512x32_S512x32_S512x32_S512x32_S512x32_S512x32_S512x32_S512x32_S512x32_S512x32_S512x32_S512x32_S512x32_S512x32_S512x512_d1
      r q).trans ?_
    rw [pay2_eq]; rfl

/-- The rest of the network on the first layer's values `v75` before the bias, at row `r`: the bias row, relu, the
    second layer against `x4` with its bias row `x5`, relu, the weighted sum with the row `x6`, the bias `x7`, the
    logistic function. -/
theorem pay1_apply (v75 : FVec Ideal S512x1024 .f32) (x3 : Vec Ideal S1x1024 .f32) (x4 : Vec Ideal S1024x512 .bf16)
    (x5 : Vec Ideal S1x512 .f32) (x6 : Vec Ideal S1x512 .f32) (x7 : Vec Ideal S1x1 .f32) (r : Fin 512) :
    k0_pay1 (F := Ideal) v75 x3 x4 x5 x6 x7 (ix1 r)
      = PNN.head (fun j => v75 (ix2 r j) + x3 (ix2 (0 : Fin 1) j)) (fun j k => x4 (ix2 j k))
          (fun k => x5 (ix2 (0 : Fin 1) k)) (fun k => x6 (ix2 (0 : Fin 1) k)) (x7 (ix2 (0 : Fin 1) (0 : Fin 1))) := by
  unfold k0_pay1 PNN.head
  -- the column [512, 1] read back as [512]: entry `(r, 0)`
  refine (shapeCast_apply _ _ (ix1 r) (ix2 r (0 : Fin 1)) ?_).trans ?_
  · rw [Shape.rowMajor_val_two, Shape.rowMajor_val_one]
    show r.val * 1 + 0 = r.val
    omega
  refine congrArg Ideal.logistic ?_
  refine (addf_apply _ _ _).trans ?_
  refine congrArg₂ (· + ·) ?_ ?_
  · -- the lane sums [512] as a column: entry `r`
    refine (shapeCast_apply _ _ (ix2 r (0 : Fin 1)) (ix1 r) ?_).trans ?_
    · rw [Shape.rowMajor_val_two, Shape.rowMajor_val_one]
      show r.val = r.val * 1 + 0
      omega
    refine (Ideal.multiReduction_add_single _ _ Gen.reduces_S512x512_S512 _ _ (ix1 r)).trans ?_
    refine Finset.sum_congr rfl fun k _ => ?_
    have hl : Gen.reduces_S512x512_S512.lift (ix1 r) k = ix2 r k := by
      funext b
      match b with
      | ⟨0, _⟩ => rfl
      | ⟨1, _⟩ => rfl
    refine (congrArg _ hl).trans ?_
    refine (mulf_apply _ _ _).trans ?_
    refine congrArg₂ (· * ·) ?_ ?_
    · refine (maximumf_apply _ _ _).trans ?_
      refine congrArg₂ max ?_ Ideal.ofBits_zero_f32
      refine (addf_apply _ _ _).trans ?_
      refine congrArg₂ (· + ·) ?_ ?_
      · refine (matmul_plain_zero_apply (m := 512) (k := 1024) (n := 512) none _ _ r k).trans ?_
        refine Finset.sum_congr rfl fun j _ => ?_
        refine congrArg₂ (· * ·) ?_ (congrFun (shapeCast_self _ _) _)
        refine (truncf_apply (φ := .f32) (ψ := .bf16) _ Gen.bitsLt_bf16_f32 (ix2 r j)).trans ?_
        refine (maximumf_apply _ _ _).trans ?_
        refine congrArg₂ max ?_ Ideal.ofBits_zero_f32
        refine (addf_apply _ _ _).trans ?_
        refine congrArg (v75 (ix2 r j) + ·) ?_
        refine (broadcastTo_1b_ab_apply _ _ r j).trans ?_
        exact congrFun (shapeCast_self _ _) _
      · refine (broadcastTo_1b_ab_apply _ _ r k).trans ?_
        exact congrFun (shapeCast_self _ _) _
    · refine (broadcastTo_1b_ab_apply _ _ r k).trans ?_
      exact congrFun (shapeCast_self _ _) _
  · refine (broadcastTo_1b_ab_apply (a := 512) (b := 1) _ _ r (0 : Fin 1)).trans ?_
    exact congrFun (shapeCast_self _ _) _

/-! ## The store -/

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

theorem payload_apply (x0 : Vec Ideal S512x32x64 .bf16) (x1 : Vec Ideal S2048x1024 .bf16) (x2 : Vec Ideal S512x1024 .bf16)
    (x3 : Vec Ideal S1x1024 .f32) (x4 : Vec Ideal S1024x512 .bf16) (x5 : Vec Ideal S1x512 .f32) (x6 : Vec Ideal S1x512 .f32)
    (x7 : Vec Ideal S1x1 .f32) (r : Fin 512) :
    Gen.out0_8 (F := Ideal) x0 x1 x2 x3 x4 x5 x6 x7 (ix1 r)
    = PNN.head
        (PNN.layer1K (fun f d => x0 (ix3 r f d)) (fun k j => x1 (ix2 k j)) (fun q j => x2 (ix2 q j))
          (fun j => x3 (ix2 (0 : Fin 1) j)))
        (fun j k => x4 (ix2 j k)) (fun k => x5 (ix2 (0 : Fin 1) k)) (fun k => x6 (ix2 (0 : Fin 1) k))
        (x7 (ix2 (0 : Fin 1) (0 : Fin 1))) := by
  have e0 : View.ld x0 Gen.r0_0 = x0 := View.ld_unit_zero (S := S512x32x64) zeros3 _ x0
  have e1 : View.ld x1 Gen.r0_1 = x1 := View.ld_unit_zero (S := S2048x1024) zeros2 _ x1
  have e2 : View.ld x2 Gen.r0_2 = x2 := View.ld_unit_zero (S := S512x1024) zeros2 _ x2
  have e3 : View.ld x3 Gen.r0_3 = x3 := View.ld_unit_zero (S := S1x1024) zeros2 _ x3
  have e4 : View.ld x4 Gen.r0_4 = x4 := View.ld_unit_zero (S := S1024x512) zeros2 _ x4
  have e5 : View.ld x5 Gen.r0_5 = x5 := View.ld_unit_zero (S := S1x512) zeros2 _ x5
  have e6 : View.ld x6 Gen.r0_5 = x6 := View.ld_unit_zero (S := S1x512) zeros2 _ x6
  have e7 : View.ld x7 Gen.r0_6 = x7 := View.ld_unit_zero (S := S1x1) zeros2 _ x7
  unfold Gen.out0_8
  rw [View.canon_unit_zero zeros1, e0, e1, e2, e3, e4, e5, e6, e7]
  refine (pay1_apply _ x3 x4 x5 x6 x7 r).trans ?_
  refine congrArg (fun h => PNN.head h _ _ _ _) (funext fun j => ?_)
  unfold PNN.layer1K
  exact congrArg (· + x3 (ix2 (0 : Fin 1) j)) (pay13_apply x0 x1 x2 r j)

end Cert.KernelIdeal.KV

end
-- ==== Proof.Tabs.lean ====
/-
  The four constant tables of the two programs as functions into the index ranges they are used at.
  The kernel's program gathers rows of the last 496 rows of the first layer's matrix at the row numbers
  `PK q` (its 512-entry integer table, read signed and clamped into the 496 rows as the gather does) and
  multiplies row `q` by `MK q` (its 512-entry float table read as an extended real); the reference
  reads the pair `p`'s inner product at the fields `I0R p`, `I1R p` (its two 496-entry integer tables,
  clamped into the 32 fields as its gather does).
-/
import proofs.«429863_j12421045420605_3_alg».proof.KernelIdeal
import proofs.«429863_j12421045420605_3_alg».proof.ReferenceIdeal
import proofs.«429863_j12421045420605_3_alg».proof.Proof.Spec

noncomputable section

namespace PNN

open Idealize.ShloMosaic

/-- Row `q` of the kernel's re-ordered matrix is row `PK q` of the last 496 rows. -/
def PK (q : Fin 512) : Fin 496 := ⟨min (Cert.KernelIdeal.lit0 q).toInt.toNat 495, by omega⟩
/-- … multiplied by `MK q` (one or zero). -/
def MK (q : Fin 512) : EReal := Ideal.ofBits .f32 (Cert.KernelIdeal.lit1 q)
/-- The smaller field of the reference's pair `p`. -/
def I0R (p : Fin 496) : Fin 32 := ⟨min (Cert.ReferenceIdeal.lit0 p).toInt.toNat 31, by omega⟩
/-- The larger field of the reference's pair `p`. -/
def I1R (p : Fin 496) : Fin 32 := ⟨min (Cert.ReferenceIdeal.lit1 p).toInt.toNat 31, by omega⟩

end PNN

end
-- ==== Proof.KerOut.lean ====
/-
  The kernel program's result as a function of its eight argument arrays: the embeddings it gathers
  (`embK`: the table's row at field `f` and the example's id, as the program's own gather with its own start
  indices computes it), and entry `(b, 0)` of the result, the network's output in the kernel's arrangement of
  the first layer.
-/
import proofs.«429863_j12421045420605_3_alg».proof.Proof.Gen.KernelIdeal
import proofs.«429863_j12421045420605_3_alg».proof.Proof.Tabs
import Idealize.ShloMosaic.Lib.ValueIdx

noncomputable section

namespace Cert.KernelIdeal.KV

open Idealize.ShloMosaic Idealize.ShloMosaic.ValueIdx Idealize.SL.Sem Cert.KernelIdeal Cert.KernelIdeal.Facts₀

/-- The start indices of the embedding gather, `[b, f] ↦ (f, id b f)` with negative numbers wrapped once, as the
    program computes them from the ids. -/
def embIdx (a0 : IVec S16384x32 32) : IVec S16384x32x2 32 :=
  let v1 : IVec S1x32 32 := broadcastInDim S1x32 ![1] bcast_S32_S1x32_1 (iotaInDim S32 32 0)
  let v2 : IVec S1x32 32 := broadcastInDim S1x32 ![] bcast_S_S1x32 (constantI S_ 32 0#32)
  let v4 : IVec S1x32 32 := broadcastInDim S1x32 ![] bcast_S_S1x32 (constantI S_ 32 32#32)
  let v6 : IVec S1x32 32 := select (cmpi .slt v1 v2) (addi v1 v4) v1
  let v7 : IVec S16384x32 32 := broadcastInDim S16384x32 ![] bcast_S_S16384x32 (constantI S_ 32 0#32)
  let v9 : IVec S16384x32 32 := broadcastInDim S16384x32 ![] bcast_S_S16384x32 (constantI S_ 32 100000#32)
  let v11 : IVec S16384x32 32 := select (cmpi .slt a0 v7) (addi a0 v9) a0
  let v12 : IVec S16384x32 32 := broadcastInDim S16384x32 ![0, 1] bcast_S1x32_S16384x32_0_1 v6
  let v13 : IVec S16384x32x1 32 := broadcastInDim S16384x32x1 ![0, 1] bcast_S16384x32_S16384x32x1_0_1 v12
  let v14 : IVec S16384x32x1 32 := broadcastInDim S16384x32x1 ![0, 1] bcast_S16384x32_S16384x32x1_0_1 v11
  concatenate S16384x32x2 2 [⟨S16384x32x1, v13⟩, ⟨S16384x32x1, v14⟩] concatenates_S16384x32x1_S16384x32x1_S16384x32x2_d2

/-- The gathered embeddings `[b, f, d]`. -/
def embK (a0 : IVec S16384x32 32) (a1 : FVec Ideal S32x100000x64 .f32) : FVec Ideal S16384x32x64 .f32 :=
  Host.gather gather_S32x100000x64_S16384x32x2_S16384x32x64_2_01_n_n_01_2_1164 a1 (embIdx a0)

/-- The kernel program's result. -/
def kerOut (a0 : IVec S16384x32 32) (a1 : FVec Ideal S32x100000x64 .f32) (a2 : FVec Ideal S2544x1024 .f32)
    (a3 : FVec Ideal S1024 .f32) (a4 : FVec Ideal S1024x512 .f32) (a5 : FVec Ideal S512 .f32)
    (a6 : FVec Ideal S512x1 .f32) (a7 : FVec Ideal S1 .f32) : FVec Ideal S16384x1 .f32 :=
  fun i =>
    PNN.head
      (PNN.layer1K (fun f d => embK a0 a1 (ix3 (⟨(i 0).val, idx2_lt0 i⟩ : Fin 16384) f d))
        (fun k j => a2 (ix2 (⟨k.val, by have := k.isLt; omega⟩ : Fin 2544) j))
        (fun q j => a2 (ix2 (⟨2048 + (PNN.PK q).val, by have := (PNN.PK q).isLt; omega⟩ : Fin 2544) j) * PNN.MK q)
        (fun j => a3 (ix1 j)))
      (fun j k => a4 (ix2 j k)) (fun k => a5 (ix1 k)) (fun k => a6 (ix2 k (0 : Fin 1))) (a7 (ix1 (0 : Fin 1)))

/-- Argument array 0 on core `c`, at its literal type. -/
abbrev argK0 (m : (ℓ : Loc nD τ sig) → Buf (Elt Ideal) ℓ) (c : Dev nD) : IVec S16384x32 32 := m ((c.tc : Thread nD τ).loc main_arg0)
/-- Argument array 1 on core `c`, at its literal type. -/
abbrev argK1 (m : (ℓ : Loc nD τ sig) → Buf (Elt Ideal) ℓ) (c : Dev nD) : FVec Ideal S32x100000x64 .f32 := m ((c.tc : Thread nD τ).loc main_arg1)
/-- Argument array 2 on core `c`, at its literal type. -/
abbrev argK2 (m : (ℓ : Loc nD τ sig) → Buf (Elt Ideal) ℓ) (c : Dev nD) : FVec Ideal S2544x1024 .f32 := m ((c.tc : Thread nD τ).loc main_arg2)
/-- Argument array 3 on core `c`, at its literal type. -/
abbrev argK3 (m : (ℓ : Loc nD τ sig) → Buf (Elt Ideal) ℓ) (c : Dev nD) : FVec Ideal S1024 .f32 := m ((c.tc : Thread nD τ).loc main_arg3)
/-- Argument array 4 on core `c`, at its literal type. -/
abbrev argK4 (m : (ℓ : Loc nD τ sig) → Buf (Elt Ideal) ℓ) (c : Dev nD) : FVec Ideal S1024x512 .f32 := m ((c.tc : Thread nD τ).loc main_arg4)
/-- Argument array 5 on core `c`, at its literal type. -/
abbrev argK5 (m : (ℓ : Loc nD τ sig) → Buf (Elt Ideal) ℓ) (c : Dev nD) : FVec Ideal S512 .f32 := m ((c.tc : Thread nD τ).loc main_arg5)
/-- Argument array 6 on core `c`, at its literal type. -/
abbrev argK6 (m : (ℓ : Loc nD τ sig) → Buf (Elt Ideal) ℓ) (c : Dev nD) : FVec Ideal S512x1 .f32 := m ((c.tc : Thread nD τ).loc main_arg6)
/-- Argument array 7 on core `c`, at its literal type. -/
abbrev argK7 (m : (ℓ : Loc nD τ sig) → Buf (Elt Ideal) ℓ) (c : Dev nD) : FVec Ideal S1 .f32 := m ((c.tc : Thread nD τ).loc main_arg7)

end Cert.KernelIdeal.KV

end
-- ==== Proof.LibRowGather.lean ====
/-
  A stablehlo.gather that picks whole rows of a rank-2 table, read at an index.

  What `table[idx]` of a table `[N, C]` at a vector of `n` row numbers lowers to: a gather whose start indices are the
  `[n, 1]` column of row numbers, whose operand axis 0 is collapsed and start-indexed, whose operand axis 1 is the one
  offset axis (result axis 1), with slice sizes `[1, C]`, no batching axes and the index vector on axis 1 of the
  start indices.  Result element `(p, q)` is the table at row "start index `p` read SIGNED and CLAMPED into
  `[0, N − 1]`" and column `q`: on axis 0 the slice has one row, so the clamp is to `N − 1`; on axis 1 the slice is the
  whole axis, the start is 0 and the offset coordinate is `q`.
-/
import Idealize.ShloMosaic.PureOps.ShapeOps
import Idealize.ShloMosaic.Lib.ValueIdx

namespace RowGather

open Idealize.ShloMosaic Idealize.ShloMosaic.ValueIdx

/-- THE ROW GATHER READ AT `(p, q)`.  `d` is any record of dimension numbers over an operand `[N, C]`, start indices
    `[n, 1]` and a result `[n, C]` whose lists are the row-take's (`hoff` … `hivd`: each holds by `rfl` for a printed
    record): offset axes `[1]`, collapsed slice axes `[0]`, no operand batching axes, start index map `[0]`, index vector
    on axis 1.  The result at `(p, q)` is the operand at row `min (toInt (idx (p, 0))).toNat (N − 1)` — the start index read
    as a signed integer, a negative one reading row 0 and one past the end reading the last row — and column `q`. -/
theorem rowGather_apply {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 ⟨min (idx (ix2 p (0 : Fin 1))).toInt.toNat (N - 1), by omega⟩ q) := by
  unfold Host.gather
  congr 1
  funext a
  have key0 : ∀ (l : List (Fin 2)) (k : Nat) (h : k < l.length), l = [0] →
      ((ix2 p q : (⟨2, ![n, C]⟩ : Shape).Idx) l[k]).val = p.val := fun l k h hl => by
    subst hl
    obtain rfl : k = 0 := by simpa using h
    rfl
  have key1 : ∀ (l : List (Fin 2)) (k : Nat) (h : k < l.length), l = [1] →
      ((ix2 p q : (⟨2, ![n, C]⟩ : Shape).Idx) l[k]).val = q.val := fun l k h hl => by
    subst hl
    obtain rfl : k = 0 := by simpa using h
    rfl
  have hb : ∀ a : Fin 2, a ∉ d.operandBatchingDims := fun a => by rw [hob]; exact List.not_mem_nil
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = _
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 p (0 : Fin 1))).toInt.toNat (N - 1)
    rw [hsl]
    congr 3
    congr 1
    funext b
    match b with
    | ⟨0, _⟩ =>
      -- the batch coordinate: result axis 0 is the one batch axis, reading the start indices' axis 0
      unfold GatherDims.siIdx
      rw [dif_neg (by rw [hivd]; simp)]
      unfold GatherDims.siCoord
      apply Fin.ext
      simp only [Fin.val_cast]
      have hbatch : d.batchDims = [0] := by
        show Shape.kept _ d.offsetDims = [0]
        rw [hoff]; rfl
      exact key0 d.batchDims _ _ hbatch
    | ⟨1, _⟩ =>
      -- the index vector's axis: component 0 of the start index, the place of operand axis 0 in the start index map
      unfold GatherDims.siIdx
      rw [dif_pos (by rw [hivd])]
      apply Fin.ext
      show List.idxOf (0 : Fin 2) d.startIndexMap = 0
      rw [hsim]; simp
  | ⟨1, _⟩ =>
    -- axis 1 is not start-indexed (start 0) and is the one kept axis: the offset coordinate is the result's on axis 1
    apply Fin.ext
    have hk : (1 : Fin 2) ∈ d.sKept := by
      rw [GatherDims.mem_sKept, hcoll]; exact ⟨by simp, hb 1⟩
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb 1)]
    unfold GatherDims.start GatherDims.offCoord
    rw [dif_neg hm, dif_pos hk]
    simp only [Nat.add_zero, Nat.zero_add]
    exact key1 d.offsetDims _ _ hoff

end RowGather
-- ==== Proof.KernelPrelude.lean ====
/-
  The arrays the kernel's region finds, as functions of the program's argument arrays: the gathered embeddings
  (window 0), the first 2048 rows of the first layer's matrix (window 1), its re-ordered and masked last 496 rows
  (window 2: row `q` is row `2048 + PK q` times `MK q`), the second layer's matrix (window 4), and the biases and
  the last layer's column laid out as rows (windows 3, 5, 6, 7).
-/
import proofs.«429863_j12421045420605_3_alg».proof.Proof.Gen.KernelIdeal.Frame
import proofs.«429863_j12421045420605_3_alg».proof.Proof.KerOut
import proofs.«429863_j12421045420605_3_alg».proof.Proof.LibRowGather
import Idealize.ShloMosaic.Lib.ValueIdx
import Idealize.ShloMosaic.Lib.ValueLayout
import Idealize.ShloMosaic.Lib.Pipeline.Value
import Idealize.ShloMosaic.Lib.StableHlo.Run
import Idealize.ShloMosaic.Lib.Decide

noncomputable section

namespace Cert.KernelIdeal.KV

open Idealize.ShloMosaic Idealize.ShloMosaic.ValueIdx Idealize.SL.Sem Cert.KernelIdeal Cert.KernelIdeal.Gen

variable (m : (ℓ : Loc nD τ sig) → Buf (Elt Ideal) ℓ)

/-! ## The host operations' terms

Each array below is written once by the host operations before the region; what it holds is that operation's
function applied to what its operands hold, down to the program's arguments. -/

/-- Window 0's array: the gathered embeddings, narrowed. -/
theorem V17_term (c : Dev nD) :
    (V m c main_v17 : FVec Ideal S16384x32x64 .bf16)
      = truncf .bf16 (embK (argK0 m c) (argK1 m c)) bitsLt_bf16_f32 := by
  show StableHlo.after hostOps0 (fun b => m (c, b)) (Proc.devRef .tc main_v17) = _
  after_results_simp
  rfl

/-- Window 1's array: the rows `0 … 2047` of the first layer's matrix, narrowed. -/
theorem V29_term (c : Dev nD) :
    (V m c main_v29 : FVec Ideal S2048x1024 .bf16)
      = truncf .bf16 (extractStridedSlice S2048x1024 ![0, 0] (argK2 m c) slices_S2544x1024_S2048x1024_0_0) bitsLt_bf16_f32 := by
  show StableHlo.after hostOps0 (fun b => m (c, b)) (Proc.devRef .tc main_v29) = _
  after_results_simp

/-- Window 4's array: the second layer's matrix, narrowed. -/
theorem V31_term (c : Dev nD) :
    (V m c main_v31 : FVec Ideal S1024x512 .bf16) = truncf .bf16 (argK4 m c) bitsLt_bf16_f32 := by
  show StableHlo.after hostOps0 (fun b => m (c, b)) (Proc.devRef .tc main_v31) = _
  after_results_simp

/-- Window 3's array: the first layer's bias as one row. -/
theorem V32_term (c : Dev nD) :
    (V m c main_v32 : FVec Ideal S1x1024 .f32) = shapeCast S1x1024 (argK3 m c) shapeCasts_S1024_S1x1024 := by
  show StableHlo.after hostOps0 (fun b => m (c, b)) (Proc.devRef .tc main_v32) = _
  after_results_simp
  rfl

/-- Window 5's array: the second layer's bias as one row. -/
theorem V33_term (c : Dev nD) :
    (V m c main_v33 : FVec Ideal S1x512 .f32) = shapeCast S1x512 (argK5 m c) shapeCasts_S512_S1x512 := by
  show StableHlo.after hostOps0 (fun b => m (c, b)) (Proc.devRef .tc main_v33) = _
  after_results_simp
  rfl

/-- Window 6's array: the last layer's column as one row. -/
theorem V34_term (c : Dev nD) :
    (V m c main_v34 : FVec Ideal S1x512 .f32) = shapeCast S1x512 (argK6 m c) shapeCasts_S512x1_S1x512 := by
  show StableHlo.after hostOps0 (fun b => m (c, b)) (Proc.devRef .tc main_v34) = _
  after_results_simp
  rfl

/-- Window 7's array: the last layer's bias as a one-by-one matrix. -/
theorem V35_term (c : Dev nD) :
    (V m c main_v35 : FVec Ideal S1x1 .f32) = shapeCast S1x1 (argK7 m c) shapeCasts_S1_S1x1 := by
  show StableHlo.after hostOps0 (fun b => m (c, b)) (Proc.devRef .tc main_v35) = _
  after_results_simp
  rfl

/-! ## The re-ordered and masked rows -/

/-- Every entry of the kernel's integer table is non-negative as a signed number. -/
theorem prelude_lit0_not_neg : ∀ q : Fin 512, IntOp.cmpi .slt (lit0 q) 0#32 = 0#1 := by decide +kernel

/-- The start-index column of the row gather: the table with negative entries wrapped once, as a column. -/
def preludePkCol : IVec S512x1 32 :=
  broadcastInDim S512x1 ![0] bcast_S512_S512x1_0
    (select (cmpi .slt (fun i => lit0 (S512.rowMajor i)) (broadcastInDim S512 ![] bcast_S_S512 (constantI S_ 32 0#32)))
      (addi (fun i => lit0 (S512.rowMajor i)) (broadcastInDim S512 ![] bcast_S_S512 (constantI S_ 32 496#32)))
      (fun i => lit0 (S512.rowMajor i)))

/-- The mask column. -/
def preludeMkCol : FVec Ideal S512x1 .f32 := fun i => FloatOps.ofBits .f32 (lit1 (S512x1.rowMajor i))

/-- Window 2's array: the rows gathered from the last 496 rows at the start-index column, times the mask column
    broadcast along the rows, narrowed. -/
theorem V30_term (c : Dev nD) :
    (V m c main_v30 : FVec Ideal S512x1024 .bf16)
      = truncf .bf16
          (mulf
            (Host.gather gather_S496x1024_S512x1_S512x1024_1_0_n_n_0_1_11024
              (extractStridedSlice S496x1024 ![2048, 0] (argK2 m c) slices_S2544x1024_S496x1024_2048_0) preludePkCol)
            (broadcastInDim S512x1024 ![0, 1] bcast_S512x1_S512x1024_0_1 preludeMkCol))
          bitsLt_bf16_f32 := by
  show StableHlo.after hostOps0 (fun b => m (c, b)) (Proc.devRef .tc main_v30) = _
  after_results_simp
  rfl

/-- A vector's position `q` is its row-major place `q`. -/
theorem prelude_rowMajor_ix1 (q : Fin 512) : S512.rowMajor (ix1 q) = q :=
  Fin.ext (Shape.rowMajor_val_one _)

/-- The start index of row `q` is the table's entry `q`. -/
theorem preludePkCol_apply (q : Fin 512) : preludePkCol (ix2 q (0 : Fin 1)) = lit0 q := by
  unfold preludePkCol
  rw [broadcastInDim_apply _ _ _ (ix2 q (0 : Fin 1)) (ix1 q) (fun a => by
    match a with
    | ⟨0, _⟩ => simp)]
  rw [select_apply]
  show Scalar.select (IntOp.cmpi .slt (lit0 (S512.rowMajor (ix1 q))) 0#32) _ (lit0 (S512.rowMajor (ix1 q))) = _
  rw [prelude_rowMajor_ix1, prelude_lit0_not_neg, select_zero]

/-- The mask of row `q`, read anywhere along the row. -/
theorem preludeMkCol_apply (q : Fin 512) (j : Fin 1024) :
    broadcastInDim S512x1024 ![0, 1] bcast_S512x1_S512x1024_0_1 preludeMkCol (ix2 q j) = PNN.MK q := by
  rw [broadcastInDim_apply _ _ _ (ix2 q j) (ix2 q (0 : Fin 1)) (fun a => by
    match a with
    | ⟨0, _⟩ => simp
    | ⟨1, _⟩ => simp)]
  unfold preludeMkCol PNN.MK
  rw [Ideal.ofBits_def]
  congr 2
  exact Fin.ext (by rw [Shape.rowMajor_val_two]; simp)

/-! ## The arrays read at an index -/

theorem V17_apply (c : Dev nD) (i : S16384x32x64.Idx) :
    (V m c main_v17 : FVec Ideal S16384x32x64 .bf16) i = embK (argK0 m c) (argK1 m c) i := by
  rw [V17_term, truncf_apply]

theorem V29_apply (c : Dev nD) (k : Fin 2048) (j : Fin 1024) :
    (V m c main_v29 : FVec Ideal S2048x1024 .bf16) (ix2 k j)
    = argK2 m c (ix2 (⟨k.val, by have := k.isLt; omega⟩ : Fin 2544) j) := by
  rw [V29_term, truncf_apply]
  refine extractStridedSlice_apply _ _ _ _ _ (fun a => ?_)
  match a with
  | ⟨0, _⟩ => simp
  | ⟨1, _⟩ => simp

theorem V30_apply (c : Dev nD) (q : Fin 512) (j : Fin 1024) :
    (V m c main_v30 : FVec Ideal S512x1024 .bf16) (ix2 q j)
    = argK2 m c (ix2 (⟨2048 + (PNN.PK q).val, by have := (PNN.PK q).isLt; omega⟩ : Fin 2544) j) * PNN.MK q := by
  rw [V30_term, truncf_apply, mulf_apply, preludeMkCol_apply,
    RowGather.rowGather_apply gather_S496x1024_S512x1_S512x1024_1_0_n_n_0_1_11024 rfl rfl rfl rfl rfl _ _ q j (by decide)]
  congr 1
  have hrow : min (preludePkCol (ix2 q (0 : Fin 1))).toInt.toNat (496 - 1) = (PNN.PK q).val := by
    rw [preludePkCol_apply]; rfl
  refine extractStridedSlice_apply _ _ _ _ _ (fun a => ?_)
  match a with
  | ⟨0, _⟩ =>
    show 2048 + (PNN.PK q).val = 2048 + min (preludePkCol (ix2 q (0 : Fin 1))).toInt.toNat (496 - 1)
    rw [hrow]
  | ⟨1, _⟩ => simp

theorem V32_apply (c : Dev nD) (j : Fin 1024) :
    (V m c main_v32 : FVec Ideal S1x1024 .f32) (ix2 (0 : Fin 1) j) = argK3 m c (ix1 j) := by
  rw [V32_term]
  refine shapeCast_apply _ _ _ _ ?_
  rw [Shape.rowMajor_val_one, Shape.rowMajor_val_two]
  simp

theorem V31_apply (c : Dev nD) (j : Fin 1024) (k : Fin 512) :
    (V m c main_v31 : FVec Ideal S1024x512 .bf16) (ix2 j k) = argK4 m c (ix2 j k) := by
  rw [V31_term, truncf_apply]

theorem V33_apply (c : Dev nD) (k : Fin 512) :
    (V m c main_v33 : FVec Ideal S1x512 .f32) (ix2 (0 : Fin 1) k) = argK5 m c (ix1 k) := by
  rw [V33_term]
  refine shapeCast_apply _ _ _ _ ?_
  rw [Shape.rowMajor_val_one, Shape.rowMajor_val_two]
  simp

theorem V34_apply (c : Dev nD) (k : Fin 512) :
    (V m c main_v34 : FVec Ideal S1x512 .f32) (ix2 (0 : Fin 1) k) = argK6 m c (ix2 k (0 : Fin 1)) := by
  rw [V34_term]
  refine shapeCast_apply _ _ _ _ ?_
  rw [Shape.rowMajor_val_two, Shape.rowMajor_val_two]
  simp

theorem V35_apply (c : Dev nD) :
    (V m c main_v35 : FVec Ideal S1x1 .f32) (ix2 (0 : Fin 1) (0 : Fin 1)) = argK7 m c (ix1 (0 : Fin 1)) := by
  rw [V35_term]
  refine shapeCast_apply _ _ _ _ ?_
  rw [Shape.rowMajor_val_one, Shape.rowMajor_val_two]
  simp

end Cert.KernelIdeal.KV

end
-- ==== Proof.KernelRun.lean ====
/-
  The kernel program's run at the ideal values: every weakly fair execution ends with the result array at
  `kerOut` of the argument arrays and the arguments unchanged. Block `t` of the region's output is the body's
  store over the blocks at `t` (rows `512 t … 512 t + 511` of the embeddings, the weights whole), the 32 blocks
  cover the 16384 rows, and the one host operation after the region lays the rows out as a column.
-/
import proofs.«429863_j12421045420605_3_alg».proof.Proof.KernelPayload
import proofs.«429863_j12421045420605_3_alg».proof.Proof.KernelPrelude
import proofs.«429863_j12421045420605_3_alg».proof.Proof.KerOut
import Idealize.ShloMosaic.Lib.Pipeline.Value

noncomputable section

namespace Cert.KernelIdeal.KV

open Idealize.ShloMosaic Idealize.ShloMosaic.ValueIdx Idealize.SL.Sem Cert.KernelIdeal Cert.KernelIdeal.Gen

section Blocks

variable (m : (ℓ : Loc nD τ sig) → Buf (Elt Ideal) ℓ)

/-- The index maps over the 32 grid points: the embeddings' and the result's blocks move with the point along
    the rows, every other window stays at its one block. -/
theorem idxFacts : ∀ t : Fin cfg0.N, win0_8.index t (0 : Fin 1) = t.val
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row `r` of the embeddings' block at point `t` is row `512 t + r` of the gathered embeddings. -/
theorem blk0_apply (c : Dev nD) (t : Fin cfg0.N) (r : Fin 512) (f : Fin 32) (d : Fin 64) (h : 512 * t.val + r.val < 16384) :
    (iblk m c 0 t : Vec Ideal S512x32x64 .bf16) (ix3 r f d)
      = (V m c main_v17 : FVec Ideal S16384x32x64 .bf16) (ix3 (⟨512 * t.val + r.val, h⟩ : Fin 16384) f d) := by
  obtain ⟨-, e0, e1, e2, -⟩ := idxFacts t
  unfold iblk
  rw [View.read_apply]
  show V m c main_v17 (((cfg0.win 0).blk t).view.emb (ix3 r f d)) = _
  refine congrArg (V m c main_v17) ?_
  funext a
  apply Fin.ext
  match a with
  | ⟨0, _⟩ => show win0_0.index t (0 : Fin 3) * 512 + 1 * r.val = 512 * t.val + r.val; omega
  | ⟨1, _⟩ => show win0_0.index t (1 : Fin 3) * 32 + 1 * f.val = f.val; omega
  | ⟨2, _⟩ => show win0_0.index t (2 : Fin 3) * 64 + 1 * d.val = d.val; omega

/-- The first 2048 rows of the first layer's matrix are one block: the block is the array. -/
theorem blk1_apply (c : Dev nD) (t : Fin cfg0.N) (y : S2048x1024.Idx) :
    (iblk m c 1 t : Vec Ideal S2048x1024 .bf16) y = (V m c main_v29 : FVec Ideal S2048x1024 .bf16) y := by
  obtain ⟨-, -, -, -, e0, e1, -⟩ := idxFacts t
  unfold iblk
  rw [View.read_apply]
  show V m c main_v29 (((cfg0.win 1).blk t).view.emb y) = _
  refine congrArg (V m c main_v29) ?_
  funext a
  apply Fin.ext
  match a with
  | ⟨0, _⟩ => show win0_1.index t (0 : Fin 2) * 2048 + 1 * (y 0).val = (y 0).val; omega
  | ⟨1, _⟩ => show win0_1.index t (1 : Fin 2) * 1024 + 1 * (y 1).val = (y 1).val; omega

/-- The re-ordered last rows of the first layer's matrix: the block is the array. -/
theorem blk2_apply (c : Dev nD) (t : Fin cfg0.N) (y : S512x1024.Idx) :
    (iblk m c 2 t : Vec Ideal S512x1024 .bf16) y = (V m c main_v30 : FVec Ideal S512x1024 .bf16) y := by
  obtain ⟨-, -, -, -, -, -, e0, e1, -⟩ := idxFacts t
  unfold iblk
  rw [View.read_apply]
  show V m c main_v30 (((cfg0.win 2).blk t).view.emb y) = _
  refine congrArg (V m c main_v30) ?_
  funext a
  apply Fin.ext
  match a with
  | ⟨0, _⟩ => show win0_2.index t (0 : Fin 2) * 512 + 1 * (y 0).val = (y 0).val; omega
  | ⟨1, _⟩ => show win0_2.index t (1 : Fin 2) * 1024 + 1 * (y 1).val = (y 1).val; omega

/-- The first layer's bias row: the block is the array. -/
theorem blk3_apply (c : Dev nD) (t : Fin cfg0.N) (y : S1x1024.Idx) :
    (iblk m c 3 t : Vec Ideal S1x1024 .f32) y = (V m c main_v32 : FVec Ideal S1x1024 .f32) y := by
  obtain ⟨-, -, -, -, -, -, -, -, e0, e1, -⟩ := idxFacts t
  unfold iblk
  rw [View.read_apply]
  show V m c main_v32 (((cfg0.win 3).blk t).view.emb y) = _
  refine congrArg (V m c main_v32) ?_
  funext a
  apply Fin.ext
  match a with
  | ⟨0, _⟩ => show win0_3.index t (0 : Fin 2) * 1 + 1 * (y 0).val = (y 0).val; omega
  | ⟨1, _⟩ => show win0_3.index t (1 : Fin 2) * 1024 + 1 * (y 1).val = (y 1).val; omega

/-- The second layer's matrix: the block is the array. -/
theorem blk4_apply (c : Dev nD) (t : Fin cfg0.N) (y : S1024x512.Idx) :
    (iblk m c 4 t : Vec Ideal S1024x512 .bf16) y = (V m c main_v31 : FVec Ideal S1024x512 .bf16) y := by
  obtain ⟨-, -, -, -, -, -, -, -, -, -, e0, e1, -⟩ := idxFacts t
  unfold iblk
  rw [View.read_apply]
  show V m c main_v31 (((cfg0.win 4).blk t).view.emb y) = _
  refine congrArg (V m c main_v31) ?_
  funext a
  apply Fin.ext
  match a with
  | ⟨0, _⟩ => show win0_4.index t (0 : Fin 2) * 1024 + 1 * (y 0).val = (y 0).val; omega
  | ⟨1, _⟩ => show win0_4.index t (1 : Fin 2) * 512 + 1 * (y 1).val = (y 1).val; omega

/-- The second layer's bias row: the block is the array. -/
theorem blk5_apply (c : Dev nD) (t : Fin cfg0.N) (y : S1x512.Idx) :
    (iblk m c 5 t : Vec Ideal S1x512 .f32) y = (V m c main_v33 : FVec Ideal S1x512 .f32) y := by
  obtain ⟨-, -, -, -, -, -, -, -, -, -, -, -, e0, e1, -⟩ := idxFacts t
  unfold iblk
  rw [View.read_apply]
  show V m c main_v33 (((cfg0.win 5).blk t).view.emb y) = _
  refine congrArg (V m c main_v33) ?_
  funext a
  apply Fin.ext
  match a with
  | ⟨0, _⟩ => show win0_5.index t (0 : Fin 2) * 1 + 1 * (y 0).val = (y 0).val; omega
  | ⟨1, _⟩ => show win0_5.index t (1 : Fin 2) * 512 + 1 * (y 1).val = (y 1).val; omega

/-- The last layer's weights as a row: the block is the array. -/
theorem blk6_apply (c : Dev nD) (t : Fin cfg0.N) (y : S1x512.Idx) :
    (iblk m c 6 t : Vec Ideal S1x512 .f32) y = (V m c main_v34 : FVec Ideal S1x512 .f32) y := by
  obtain ⟨-, -, -, -, -, -, -, -, -, -, -, -, -, -, e0, e1, -⟩ := idxFacts t
  unfold iblk
  rw [View.read_apply]
  show V m c main_v34 (((cfg0.win 6).blk t).view.emb y) = _
  refine congrArg (V m c main_v34) ?_
  funext a
  apply Fin.ext
  match a with
  | ⟨0, _⟩ => show win0_6.index t (0 : Fin 2) * 1 + 1 * (y 0).val = (y 0).val; omega
  | ⟨1, _⟩ => show win0_6.index t (1 : Fin 2) * 512 + 1 * (y 1).val = (y 1).val; omega

/-- The last layer's bias: the block is the array. -/
theorem blk7_apply (c : Dev nD) (t : Fin cfg0.N) (y : S1x1.Idx) :
    (iblk m c 7 t : Vec Ideal S1x1 .f32) y = (V m c main_v35 : FVec Ideal S1x1 .f32) y := by
  obtain ⟨-, -, -, -, -, -, -, -, -, -, -, -, -, -, -, -, e0, e1⟩ := idxFacts t
  unfold iblk
  rw [View.read_apply]
  show V m c main_v35 (((cfg0.win 7).blk t).view.emb y) = _
  refine congrArg (V m c main_v35) ?_
  funext a
  apply Fin.ext
  match a with
  | ⟨0, _⟩ => show win0_7.index t (0 : Fin 2) * 1 + 1 * (y 0).val = (y 0).val; omega
  | ⟨1, _⟩ => show win0_7.index t (1 : Fin 2) * 1 + 1 * (y 1).val = (y 1).val; omega

/-- The region's whole result as a function of the program's argument arrays: entry `i` is the network's output
    for example `i`. -/
abbrev G (c : Dev nD) : S16384.Idx → EReal := fun i =>
  kerOut (argK0 m c) (argK1 m c) (argK2 m c) (argK3 m c) (argK4 m c) (argK5 m c) (argK6 m c) (argK7 m c)
    (ix2 (⟨(i 0).val, (i 0).isLt⟩ : Fin 16384) (0 : Fin 1))

/-- What the body stores for row `r` of the block at point `t` is the network's output for example `512 t + r`. -/
theorem out_row (c : Dev nD) (t : Fin cfg0.N) (r : Fin 512) (h : 512 * t.val + r.val < 16384) :
    out0_8 (F := Ideal) (iblk m c 0 t) (iblk m c 1 t) (iblk m c 2 t) (iblk m c 3 t) (iblk m c 4 t) (iblk m c 5 t) (iblk m c 6 t) (iblk m c 7 t) (ix1 r)
      = G m c (ix1 (⟨512 * t.val + r.val, h⟩ : Fin 16384)) := by
  refine (payload_apply (iblk m c 0 t) (iblk m c 1 t) (iblk m c 2 t) (iblk m c 3 t) (iblk m c 4 t) (iblk m c 5 t) (iblk m c 6 t) (iblk m c 7 t) r).trans ?_
  have e0 : (fun (f : Fin 32) (d : Fin 64) => (iblk m c 0 t : Vec Ideal S512x32x64 .bf16) (ix3 r f d))
      = fun f d => embK (argK0 m c) (argK1 m c) (ix3 (⟨512 * t.val + r.val, h⟩ : Fin 16384) f d) :=
    funext fun f => funext fun d => (blk0_apply m c t r f d h).trans (V17_apply m c _)
  have e1 : (fun (k : Fin 2048) (j : Fin 1024) => (iblk m c 1 t : Vec Ideal S2048x1024 .bf16) (ix2 k j))
      = fun k j => argK2 m c (ix2 (⟨k.val, by have := k.isLt; omega⟩ : Fin 2544) j) :=
    funext fun k => funext fun j => (blk1_apply m c t _).trans (V29_apply m c k j)
  have e2 : (fun (q : Fin 512) (j : Fin 1024) => (iblk m c 2 t : Vec Ideal S512x1024 .bf16) (ix2 q j))
      = fun q j => argK2 m c (ix2 (⟨2048 + (PNN.PK q).val, by have := (PNN.PK q).isLt; omega⟩ : Fin 2544) j) * PNN.MK q :=
    funext fun q => funext fun j => (blk2_apply m c t _).trans (V30_apply m c q j)
  have e3 : (fun (j : Fin 1024) => (iblk m c 3 t : Vec Ideal S1x1024 .f32) (ix2 (0 : Fin 1) j))
      = fun j => argK3 m c (ix1 j) :=
    funext fun j => (blk3_apply m c t _).trans (V32_apply m c j)
  have e4 : (fun (j : Fin 1024) (k : Fin 512) => (iblk m c 4 t : Vec Ideal S1024x512 .bf16) (ix2 j k))
      = fun j k => argK4 m c (ix2 j k) :=
    funext fun j => funext fun k => (blk4_apply m c t _).trans (V31_apply m c j k)
  have e5 : (fun (k : Fin 512) => (iblk m c 5 t : Vec Ideal S1x512 .f32) (ix2 (0 : Fin 1) k))
      = fun k => argK5 m c (ix1 k) :=
    funext fun k => (blk5_apply m c t _).trans (V33_apply m c k)
  have e6 : (fun (k : Fin 512) => (iblk m c 6 t : Vec Ideal S1x512 .f32) (ix2 (0 : Fin 1) k))
      = fun k => argK6 m c (ix2 k (0 : Fin 1)) :=
    funext fun k => (blk6_apply m c t _).trans (V34_apply m c k)
  have e7 : (iblk m c 7 t : Vec Ideal S1x1 .f32) (ix2 (0 : Fin 1) (0 : Fin 1)) = argK7 m c (ix1 (0 : Fin 1)) :=
    (blk7_apply m c t _).trans (V35_apply m c)
  rw [e0, e1, e2, e3, e4, e5, e6, e7]
  rfl

/-- What point `t` writes back is block `t` of `G`. -/
theorem flushed_eq (c : Dev nD) (t : Fin cfg0.N) :
    (dats m 0 c).flushed 8 t = ((cfg0.win 8).blk t).view.read (Elt Ideal) (G m c) := by
  show (cfg0.win 8).cut (grid0.coords t) ((dats m 0 c).after 8 t) = _
  rw [after0_8]
  obtain ⟨e8, -⟩ := idxFacts t
  have hN : cfg0.N = 32 := N_0
  have ht : t.val < 32 := hN ▸ t.isLt
  funext y
  obtain ⟨r, rfl⟩ : ∃ r : Fin 512, y = ix1 r := ⟨y 0, eq_ix1 y⟩
  have h : 512 * t.val + r.val < 16384 := by have := r.isLt; omega
  refine (out_row m c t r h).trans ?_
  rw [View.read_apply]
  show G m c _ = G m c (((cfg0.win 8).blk t).view.emb (ix1 r))
  refine congrArg (G m c) ?_
  funext a
  apply Fin.ext
  match a with
  | ⟨0, _⟩ => show 512 * t.val + r.val = win0_8.index t (0 : Fin 1) * 512 + 1 * r.val; omega

/-- An index of the result is in point `t`'s block iff its row is in the block's range. -/
theorem mem_blk8 (t : Fin cfg0.N) (i : S16384.Idx) :
    i ∈ ((cfg0.win 8).blk t).view.set ↔ ∀ a : Fin 1, win0_8.index t a * S512.size a ≤ (i a).val ∧ (i a).val < win0_8.index t a * S512.size a + S512.size a := by
  show i ∈ ((View.whole main_v36).slice (win0_8.rect t)).set ↔ _
  rw [View.set_slice_whole, Rect.mem_set_unit]
  exact Iff.rfl

/-- Row `i` of the 16384 lies in the block of point `i / 512`. -/
theorem cover8 (i : S16384.Idx) :
    ∃ t : Fin cfg0.N, (cfg0.win 8).flush t = true ∧ i ∈ ((cfg0.win 8).blk t).view.set := by
  have hi : (i 0).val < 16384 := (i 0).isLt
  have hN : cfg0.N = 32 := N_0
  have ht : (i 0).val / 512 < cfg0.N := by rw [hN]; omega
  obtain ⟨e8, -⟩ := idxFacts ⟨(i 0).val / 512, ht⟩
  refine ⟨⟨(i 0).val / 512, ht⟩, flush0_8 _, ?_⟩
  rw [mem_blk8]
  intro a
  match a with
  | ⟨0, _⟩ =>
    show win0_8.index ⟨(i 0).val / 512, ht⟩ (0 : Fin 1) * 512 ≤ (i 0).val ∧ (i 0).val < win0_8.index ⟨(i 0).val / 512, ht⟩ (0 : Fin 1) * 512 + 512
    rw [e8]
    show (i 0).val / 512 * 512 ≤ (i 0).val ∧ (i 0).val < (i 0).val / 512 * 512 + 512
    omega

/-- The region's result array after the run is `G`. -/
theorem final8 (c : Dev nD) : (dats m 0 c).arrAt 8 cfg0.N = G m c :=
  (dats m 0 c).arrAt_eq_of_cover 8 (G m c) (fun t _ => flushed_eq m c t) cover8

/-- The program's result: the one host operation after the region lays the region's result out as a column. -/
theorem tail_v37 (c : Dev nD) :
    Pipeline.afterTail₀ cfgs (dats m) 0 (V0 m) [hostOps1] c main_v37
      = kerOut (argK0 m c) (argK1 m c) (argK2 m c) (argK3 m c) (argK4 m c) (argK5 m c) (argK6 m c) (argK7 m c) := by
  unfold Pipeline.afterTail₀
  show StableHlo.after hostOps1 _ (Proc.devRef .tc main_v37) = _
  after_results
  have hw : Pipeline.withArrays (cfgs 0).spec c (V0 m c) (fun w => (dats m 0 c).arrAt w (cfgs 0).N) (Proc.devRef .tc main_v36)
      = G m c :=
    (Pipeline.withArrays_arr spec0 launch0.win.arr_inj c _ _ 8).trans (final8 m c)
  rw [hw]
  funext i
  obtain ⟨b, z, rfl⟩ : ∃ (b : Fin 16384) (z : Fin 1), i = ix2 b z := ⟨i 0, i 1, eq_ix2 i⟩
  obtain rfl : z = 0 := Subsingleton.elim _ _
  show shapeCast S16384x1 (G m c) shapeCasts_S16384_S16384x1 (ix2 b (0 : Fin 1)) = _
  refine (shapeCast_apply (G m c) shapeCasts_S16384_S16384x1 (ix2 b (0 : Fin 1)) (ix1 b) ?_).trans ?_
  · rw [Shape.rowMajor_val_one, Shape.rowMajor_val_two]
    show b.val = b.val * 1 + 0
    omega
  · rfl

end Blocks

/-- The kernel program's run: the frame run re-posted, the result read through the host operation after the region,
    each argument array by the frame's own reading of it. -/
theorem run (m : (ℓ : Loc nD τ sig) → Buf (Elt Ideal) ℓ) (ρ : Dev nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v37)
          = kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run defs _ _).mono (fun _ h c =>
    ⟨((h c).2 main_v37 (Pipeline.mem_restRefs_of main_v37 (by decide) (by decide))).trans (tail_v37 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (Gen.run_main m ρ)

end Cert.KernelIdeal.KV

end
-- ==== Proof.RefTerm.lean ====
/-
  The reference program's result as a function of its eight argument arrays, one named stage per group of its
  operations: the gathered embeddings (`embR`), all inner products of two fields (`prodsR`), the 496 of them
  the pair tables pick (`crossR`), the features (`featR`: the flattened embeddings followed by the picked
  products), then the three layers, and `1 / (1 + exp (−x))` spelt with the host's four operations.
-/
import proofs.«429863_j12421045420605_3_alg».proof.Proof.Gen.ReferenceIdeal
import Idealize.ShloMosaic.Lib.ValueIdx

noncomputable section

namespace Cert.ReferenceIdeal.RV

open Idealize.ShloMosaic Idealize.ShloMosaic.ValueIdx Cert.ReferenceIdeal Cert.ReferenceIdeal.Facts₀

/-- The start indices of the embedding gather, as the program computes them from the ids. -/
def embIdx (a0 : IVec S16384x32 32) : IVec S16384x32x2 32 :=
  let v1 : IVec S1x32 32 := broadcastInDim S1x32 ![1] bcast_S32_S1x32_1 (iotaInDim S32 32 0)
  let v2 : IVec S1x32 32 := broadcastInDim S1x32 ![] bcast_S_S1x32 (constantI S_ 32 0#32)
  let v4 : IVec S1x32 32 := broadcastInDim S1x32 ![] bcast_S_S1x32 (constantI S_ 32 32#32)
  let v6 : IVec S1x32 32 := select (cmpi .slt v1 v2) (addi v1 v4) v1
  let v7 : IVec S16384x32 32 := broadcastInDim S16384x32 ![] bcast_S_S16384x32 (constantI S_ 32 0#32)
  let v9 : IVec S16384x32 32 := broadcastInDim S16384x32 ![] bcast_S_S16384x32 (constantI S_ 32 100000#32)
  let v11 : IVec S16384x32 32 := select (cmpi .slt a0 v7) (addi a0 v9) a0
  let v12 : IVec S16384x32 32 := broadcastInDim S16384x32 ![0, 1] bcast_S1x32_S16384x32_0_1 v6
  let v13 : IVec S16384x32x1 32 := broadcastInDim S16384x32x1 ![0, 1] bcast_S16384x32_S16384x32x1_0_1 v12
  let v14 : IVec S16384x32x1 32 := broadcastInDim S16384x32x1 ![0, 1] bcast_S16384x32_S16384x32x1_0_1 v11
  concatenate S16384x32x2 2 [⟨S16384x32x1, v13⟩, ⟨S16384x32x1, v14⟩] concatenates_S16384x32x1_S16384x32x1_S16384x32x2_d2

/-- The gathered embeddings `[b, f, d]` (%16). -/
def embR (a0 : IVec S16384x32 32) (a1 : FVec Ideal S32x100000x64 .f32) : FVec Ideal S16384x32x64 .f32 :=
  Host.gather gather_S32x100000x64_S16384x32x2_S16384x32x64_2_01_n_n_01_2_1164 a1 (embIdx a0)

/-- All inner products `[b, f, g]` (%17). -/
def prodsR (E : FVec Ideal S16384x32x64 .f32) : FVec Ideal S16384x32x32 .f32 :=
  Host.dotGeneral dot_S16384x32x64_S16384x32x64_S16384x32x32_2_2_1_1_0_0 none E E

/-- The pair tables as the gather's start indices `[p] ↦ (first field, second field)` (%26). -/
def pairIdx : IVec S496x2 32 :=
  let c : IVec S496 32 := fun i => lit0 (S496.rowMajor i)
  let c1 : IVec S496 32 := fun i => lit1 (S496.rowMajor i)
  let v18 : IVec S496 32 := broadcastInDim S496 ![] bcast_S_S496 (constantI S_ 32 32#32)
  let v20 : IVec S496 32 := select (constantI S496 1 0#1) (addi c v18) c
  let v23 : IVec S496 32 := select (constantI S496 1 0#1) (addi c1 v18) c1
  let v24 : IVec S496x1 32 := broadcastInDim S496x1 ![0] bcast_S496_S496x1_0 v20
  let v25 : IVec S496x1 32 := broadcastInDim S496x1 ![0] bcast_S496_S496x1_0 v23
  concatenate S496x2 1 [⟨S496x1, v24⟩, ⟨S496x1, v25⟩] concatenates_S496x1_S496x1_S496x2_d1

/-- The picked products `[b, p]` (%27). -/
def crossR (P : FVec Ideal S16384x32x32 .f32) : FVec Ideal S16384x496 .f32 :=
  Host.gather gather_S16384x32x32_S496x2_S16384x496_0_12_n_n_12_1_1638411 P pairIdx

/-- The features `[b, k]` (%29): the embeddings flattened (%28), then the picked products. -/
def featR (E : FVec Ideal S16384x32x64 .f32) : FVec Ideal S16384x2544 .f32 :=
  concatenate S16384x2544 1 [⟨S16384x2048, shapeCast S16384x2048 E shapeCasts_S16384x32x64_S16384x2048⟩, ⟨S16384x496, crossR (prodsR E)⟩]
    concatenates_S16384x2048_S16384x496_S16384x2544_d1

/-- The first layer after its relu (%34). -/
def h1R (X : FVec Ideal S16384x2544 .f32) (a2 : FVec Ideal S2544x1024 .f32) (a3 : FVec Ideal S1024 .f32) :
    FVec Ideal S16384x1024 .f32 :=
  maximumf
    (addf (Host.dotGeneral dot_S16384x2544_S2544x1024_S16384x1024_1_0_0_1_n_n none X a2)
      (broadcastInDim S16384x1024 ![0, 1] bcast_S1x1024_S16384x1024_0_1 (broadcastInDim S1x1024 ![1] bcast_S1024_S1x1024_1 a3)))
    (broadcastInDim S16384x1024 ![] bcast_S_S16384x1024 (constant S_ .f32 0x00000000#32))

/-- The second layer after its relu (%39). -/
def h2R (H : FVec Ideal S16384x1024 .f32) (a4 : FVec Ideal S1024x512 .f32) (a5 : FVec Ideal S512 .f32) :
    FVec Ideal S16384x512 .f32 :=
  maximumf
    (addf (Host.dotGeneral dot_S16384x1024_S1024x512_S16384x512_1_0_0_1_n_n none H a4)
      (broadcastInDim S16384x512 ![0, 1] bcast_S1x512_S16384x512_0_1 (broadcastInDim S1x512 ![1] bcast_S512_S1x512_1 a5)))
    (broadcastInDim S16384x512 ![] bcast_S_S16384x512 (constant S_ .f32 0x00000000#32))

/-- The last layer (%43). -/
def logitR (H : FVec Ideal S16384x512 .f32) (a6 : FVec Ideal S512x1 .f32) (a7 : FVec Ideal S1 .f32) :
    FVec Ideal S16384x1 .f32 :=
  addf (Host.dotGeneral dot_S16384x512_S512x1_S16384x1_1_0_0_1_n_n none H a6)
    (broadcastInDim S16384x1 ![0, 1] bcast_S1x1_S16384x1_0_1 (broadcastInDim S1x1 ![1] bcast_S1_S1x1_1 a7))

/-- `1 / (1 + exp (−x))` in the host's operations (%44 … %49). -/
def sigR (X : FVec Ideal S16384x1 .f32) : FVec Ideal S16384x1 .f32 :=
  Host.divf (broadcastInDim S16384x1 ![] bcast_S_S16384x1 (constant S_ .f32 0x3F800000#32))
    (addf (broadcastInDim S16384x1 ![] bcast_S_S16384x1 (constant S_ .f32 0x3F800000#32)) (Host.exp (Host.negf X)))

/-- The reference program's result. -/
def refOut (a0 : IVec S16384x32 32) (a1 : FVec Ideal S32x100000x64 .f32) (a2 : FVec Ideal S2544x1024 .f32)
    (a3 : FVec Ideal S1024 .f32) (a4 : FVec Ideal S1024x512 .f32) (a5 : FVec Ideal S512 .f32)
    (a6 : FVec Ideal S512x1 .f32) (a7 : FVec Ideal S1 .f32) : FVec Ideal S16384x1 .f32 :=
  sigR (logitR (h2R (h1R (featR (embR a0 a1)) a2 a3) a4 a5) a6 a7)

end Cert.ReferenceIdeal.RV

end
-- ==== Proof.RefRun.lean ====
/-
  The reference program's run at the ideal values: its 63 host operations in order leave the result array at
  `refOut` of the argument arrays, and the arguments unchanged.

  The program is a straight line: the two calls of the outlined relu are their three operations each (the zero,
  its broadcast, the maximum) over the call's own arrays, so @main is one list of 66 operations. What the result
  array holds after the list is the operations' composed term of the arguments, read back operation by operation:
  at its own result an operation leaves its function's value of its operands' contents, at any other array what
  was there. That composed term is `refOut`, stage by stage.
-/
import proofs.«429863_j12421045420605_3_alg».proof.Proof.RefTerm
import Idealize.ShloMosaic.Lib.StableHlo.Run

noncomputable section

namespace Cert.ReferenceIdeal.RV

open Idealize.ShloMosaic Idealize.ShloMosaic.ValueIdx Idealize.SL.Sem Cert.ReferenceIdeal
open Cert.ReferenceIdeal.Facts₀ Idealize.ShloMosaic.TcCoe Idealize.ShloMosaic.StableHlo

section Ops

variable {F : FTy → Type} [FloatOps F]

/-- The function of the operation that writes %15: the two index columns side by side. -/
def catIdx (a b : IVec S16384x32x1 32) : IVec S16384x32x2 32 :=
  concatenate S16384x32x2 2 [⟨S16384x32x1, a⟩, ⟨S16384x32x1, b⟩] concatenates_S16384x32x1_S16384x32x1_S16384x32x2_d2

/-- The function of the operation that writes %26: the two pair tables side by side. -/
def catPair (a b : IVec S496x1 32) : IVec S496x2 32 :=
  concatenate S496x2 1 [⟨S496x1, a⟩, ⟨S496x1, b⟩] concatenates_S496x1_S496x1_S496x2_d1

/-- The function of the operation that writes %29: the flattened embeddings, then the picked products. -/
def catFeat (a : FVec F S16384x2048 .f32) (b : FVec F S16384x496 .f32) : FVec F S16384x2544 .f32 :=
  concatenate S16384x2544 1 [⟨S16384x2048, a⟩, ⟨S16384x496, b⟩] concatenates_S16384x2048_S16384x496_S16384x2544_d1

/-- @main's 66 operations, in order: its own sixty, and at each of the two calls the callee's three over that
    call's arrays. -/
abbrev ops : List (HloOp τ sig (Elt F)) :=
  [ nullary main_c (fun i => lit0 (S496.rowMajor i)),
    nullary main_c_0 (constantI S496 1 0#1),
    nullary main_c_1 (fun i => lit1 (S496.rowMajor i)),
    nullary main_c_2 (constantI S496 1 0#1),
    nullary main_v0 (iotaInDim S32 32 0),
    unary main_v0 main_v1 (broadcastInDim S1x32 ![1] bcast_S32_S1x32_1),
    nullary main_c_3 (constantI S_ 32 0#32),
    unary main_c_3 main_v2 (broadcastInDim S1x32 ![] bcast_S_S1x32),
    binary main_v1 main_v2 main_v3 (cmpi .slt),
    nullary main_c_4 (constantI S_ 32 32#32),
    unary main_c_4 main_v4 (broadcastInDim S1x32 ![] bcast_S_S1x32),
    binary main_v1 main_v4 main_v5 addi,
    ternary main_v3 main_v5 main_v1 main_v6 select,
    nullary main_c_5 (constantI S_ 32 0#32),
    unary main_c_5 main_v7 (broadcastInDim S16384x32 ![] bcast_S_S16384x32),
    binary main_arg0 main_v7 main_v8 (cmpi .slt),
    nullary main_c_6 (constantI S_ 32 100000#32),
    unary main_c_6 main_v9 (broadcastInDim S16384x32 ![] bcast_S_S16384x32),
    binary main_arg0 main_v9 main_v10 addi,
    ternary main_v8 main_v10 main_arg0 main_v11 select,
    unary main_v6 main_v12 (broadcastInDim S16384x32 ![0, 1] bcast_S1x32_S16384x32_0_1),
    unary main_v12 main_v13 (broadcastInDim S16384x32x1 ![0, 1] bcast_S16384x32_S16384x32x1_0_1),
    unary main_v11 main_v14 (broadcastInDim S16384x32x1 ![0, 1] bcast_S16384x32_S16384x32x1_0_1),
    binary main_v13 main_v14 main_v15 catIdx,
    binary main_arg1 main_v15 main_v16 (fun x i => Host.gather gather_S32x100000x64_S16384x32x2_S16384x32x64_2_01_n_n_01_2_1164 x i),
    binary main_v16 main_v16 main_v17 (fun l r => Host.dotGeneral dot_S16384x32x64_S16384x32x64_S16384x32x32_2_2_1_1_0_0 none l r),
    nullary main_c_7 (constantI S_ 32 32#32),
    unary main_c_7 main_v18 (broadcastInDim S496 ![] bcast_S_S496),
    binary main_c main_v18 main_v19 addi,
    ternary main_c_0 main_v19 main_c main_v20 select,
    nullary main_c_8 (constantI S_ 32 32#32),
    unary main_c_8 main_v21 (broadcastInDim S496 ![] bcast_S_S496),
    binary main_c_1 main_v21 main_v22 addi,
    ternary main_c_2 main_v22 main_c_1 main_v23 select,
    unary main_v20 main_v24 (broadcastInDim S496x1 ![0] bcast_S496_S496x1_0),
    unary main_v23 main_v25 (broadcastInDim S496x1 ![0] bcast_S496_S496x1_0),
    binary main_v24 main_v25 main_v26 catPair,
    binary main_v17 main_v26 main_v27 (fun x i => Host.gather gather_S16384x32x32_S496x2_S16384x496_0_12_n_n_12_1_1638411 x i),
    reshape main_v16 main_v28 rfl shapeCasts_S16384x32x64_S16384x2048,
    binary main_v28 main_v27 main_v29 catFeat,
    binary main_v29 main_arg2 main_v30 (fun l r => Host.dotGeneral dot_S16384x2544_S2544x1024_S16384x1024_1_0_0_1_n_n none l r),
    unary main_arg3 main_v31 (broadcastInDim S1x1024 ![1] bcast_S1024_S1x1024_1),
    unary main_v31 main_v32 (broadcastInDim S16384x1024 ![0, 1] bcast_S1x1024_S16384x1024_0_1),
    binary main_v30 main_v32 main_v33 addf,
    TRef.nullary main_call0.cst (constant S_ .f32 0x00000000#32),
    TRef.unary main_call0.cst main_call0.v0 (broadcastInDim S16384x1024 ![] bcast_S_S16384x1024),
    TRef.binary (.of main_v33) main_call0.v0 main_call0.v1 maximumf,
    binary main_v34 main_arg4 main_v35 (fun l r => Host.dotGeneral dot_S16384x1024_S1024x512_S16384x512_1_0_0_1_n_n none l r),
    unary main_arg5 main_v36 (broadcastInDim S1x512 ![1] bcast_S512_S1x512_1),
    unary main_v36 main_v37 (broadcastInDim S16384x512 ![0, 1] bcast_S1x512_S16384x512_0_1),
    binary main_v35 main_v37 main_v38 addf,
    TRef.nullary main_call1.cst (constant S_ .f32 0x00000000#32),
    TRef.unary main_call1.cst main_call1.v0 (broadcastInDim S16384x512 ![] bcast_S_S16384x512),
    TRef.binary (.of main_v38) main_call1.v0 main_call1.v1 maximumf,
    binary main_v39 main_arg6 main_v40 (fun l r => Host.dotGeneral dot_S16384x512_S512x1_S16384x1_1_0_0_1_n_n none l r),
    unary main_arg7 main_v41 (broadcastInDim S1x1 ![1] bcast_S1_S1x1_1),
    unary main_v41 main_v42 (broadcastInDim S16384x1 ![0, 1] bcast_S1x1_S16384x1_0_1),
    binary main_v40 main_v42 main_v43 addf,
    unary main_v43 main_v44 Host.negf,
    unary main_v44 main_v45 Host.exp,
    nullary main_cst (constant S_ .f32 0x3F800000#32),
    unary main_cst main_v46 (broadcastInDim S16384x1 ![] bcast_S_S16384x1),
    binary main_v46 main_v45 main_v47 addf,
    nullary main_cst_9 (constant S_ .f32 0x3F800000#32),
    unary main_cst_9 main_v48 (broadcastInDim S16384x1 ![] bcast_S_S16384x1),
    binary main_v48 main_v47 main_v49 Host.divf ]

set_option maxRecDepth 4096 in
/-- @main is that straight line: the two windows in order, the callees' bodies unfolded at their calls and the
    call records at their fields; both sides are one chain of steps once sequencing is re-associated. -/
theorem main_eq (c : Dev nD) : main (F := F) c = seq ops := by
  simp only [main, main_part0, main_part1, fn_relu.body, fn_relu_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore arrays only. -/
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., binary_bufs_sub .., reshape_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

end Ops

/-- What the result array holds after the operations, from any contents `V`: `refOut` of the eight argument
    arrays' contents. Each operation's result at its own array is its function's value of its operands' contents and
    every other array keeps what it held; the composed term is `refOut`'s stages in order (the relu calls'
    transports along the arrays' types are identities, the reshape is `shapeCast`). -/
theorem out_eq (V : Valuation τ sig (Elt Ideal)) :
    after (ops (F := Ideal)) V (Proc.devRef .tc main_v49)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) := by
  after_results_simp
  rfl

/-! No operation writes an argument array: each keeps its contents. -/
theorem arg0_eq (V : Valuation τ sig (Elt Ideal)) :
    after (ops (F := Ideal)) V (Proc.devRef .tc main_arg0) = V (Proc.devRef .tc main_arg0) := by
  after_results_simp
theorem arg1_eq (V : Valuation τ sig (Elt Ideal)) :
    after (ops (F := Ideal)) V (Proc.devRef .tc main_arg1) = V (Proc.devRef .tc main_arg1) := by
  after_results_simp
theorem arg2_eq (V : Valuation τ sig (Elt Ideal)) :
    after (ops (F := Ideal)) V (Proc.devRef .tc main_arg2) = V (Proc.devRef .tc main_arg2) := by
  after_results_simp
theorem arg3_eq (V : Valuation τ sig (Elt Ideal)) :
    after (ops (F := Ideal)) V (Proc.devRef .tc main_arg3) = V (Proc.devRef .tc main_arg3) := by
  after_results_simp
theorem arg4_eq (V : Valuation τ sig (Elt Ideal)) :
    after (ops (F := Ideal)) V (Proc.devRef .tc main_arg4) = V (Proc.devRef .tc main_arg4) := by
  after_results_simp
theorem arg5_eq (V : Valuation τ sig (Elt Ideal)) :
    after (ops (F := Ideal)) V (Proc.devRef .tc main_arg5) = V (Proc.devRef .tc main_arg5) := by
  after_results_simp
theorem arg6_eq (V : Valuation τ sig (Elt Ideal)) :
    after (ops (F := Ideal)) V (Proc.devRef .tc main_arg6) = V (Proc.devRef .tc main_arg6) := by
  after_results_simp
theorem arg7_eq (V : Valuation τ sig (Elt Ideal)) :
    after (ops (F := Ideal)) V (Proc.devRef .tc main_arg7) = V (Proc.devRef .tc main_arg7) := by
  after_results_simp

/-- On the device, from any memory with zero counters: every weakly fair execution of @main terminates with the
    result array at `refOut` of the arguments' launch contents and the arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v49)
          = refOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run (Cert.ReferenceIdeal.defs (F := Ideal)) _ _).mono
    (fun _ h c => ⟨(h c main_v49).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c))⟩)
    (run_seq scopedRefs_eq scopedSems_eq defs main (fun _ => ops) main_eq (fun _ => ops_sub) m ρ)

end Cert.ReferenceIdeal.RV

end
-- ==== Proof.LibPairGather.lean ====
/-
  A stablehlo.gather that picks, for each of `n` pairs of numbers, one entry on the last two axes of a rank-3
  array and keeps the first axis whole, read at an index.

  What `x[:, i, j]` of an array `[B, M, N]` at two vectors of `n` numbers lowers to: a gather whose start indices
  are the `[n, 2]` array of pairs, whose operand axes 1 and 2 are collapsed and start-indexed by components 0 and 1
  of the index vector, whose operand axis 0 is the one offset axis (result axis 0), with slice sizes `[B, 1, 1]`, no
  batching axes and the index vector on axis 1 of the start indices. Result element `(b, p)` is the operand at
  `b`, at the first number of pair `p` read SIGNED and CLAMPED into `[0, M − 1]`, and at the second read signed and
  clamped into `[0, N − 1]`.
-/
import Idealize.ShloMosaic.PureOps.ShapeOps
import Idealize.ShloMosaic.Lib.ValueIdx

namespace PairGather

open Idealize.ShloMosaic Idealize.ShloMosaic.ValueIdx

/-- The start-indices index at which result index `(b, p)` reads component `c` of its start index is `(p, c)`:
    the result's one batch axis is axis 1 (axis 0 is the offset axis), and it reads the start indices' axis 0; the
    index vector lies on axis 1. -/
private theorem siIdx_pair {B M N n : Nat} (d : GatherDims ⟨3, ![B, M, N]⟩ ⟨2, ![n, 2]⟩ ⟨2, ![B, n]⟩)
    (hoff : d.offsetDims = [0]) (hivd : d.indexVectorDim = 1) (b : Fin B) (p : Fin n)
    (c : Fin d.startIndexMap.length) (c' : Fin 2) (hc : c.val = c'.val) :
    d.siIdx (ix2 b p) c = ix2 p c' := by
  funext a
  match a with
  | ⟨0, _⟩ =>
    -- not the index vector's axis: the coordinate of the result's batch axis, which is axis 1
    have hbatch : d.batchDims = [1] := by
      show Shape.kept _ d.offsetDims = [1]
      rw [hoff]; rfl
    have key : ∀ (l : List (Fin 2)) (k : Nat) (h : k < l.length), l = [1] →
        ((ix2 b p : (⟨2, ![B, n]⟩ : Shape).Idx) l[k]).val = p.val := fun l k h hl => by
      subst hl
      obtain rfl : k = 0 := by simpa using h
      rfl
    unfold GatherDims.siIdx
    rw [dif_neg (by rw [hivd]; simp)]
    unfold GatherDims.siCoord
    apply Fin.ext
    simp only [Fin.val_cast]
    exact key d.batchDims _ _ hbatch
  | ⟨1, _⟩ =>
    -- the index vector's axis: the component asked for
    unfold GatherDims.siIdx
    rw [dif_pos (by rw [hivd])]
    exact Fin.ext hc

/-- THE PAIR GATHER READ AT `(b, p)`. `d` is any record of dimension numbers over an operand `[B, M, N]`, start
    indices `[n, 2]` and a result `[B, n]` whose lists are the ones above (each hypothesis holds by `rfl` for a
    printed record). -/
theorem pairGather_apply {α : Type} {B M N n w : Nat} (d : GatherDims ⟨3, ![B, M, N]⟩ ⟨2, ![n, 2]⟩ ⟨2, ![B, n]⟩)
    (hoff : d.offsetDims = [0]) (hcoll : d.collapsedSliceDims = [1, 2]) (hob : d.operandBatchingDims = [])
    (hsim : d.startIndexMap = [1, 2]) (hivd : d.indexVectorDim = 1)
    (x : (⟨3, ![B, M, N]⟩ : Shape).Idx → α) (idx : IVec ⟨2, ![n, 2]⟩ w) (b : Fin B) (p : Fin n) (hM : 0 < M) (hN : 0 < N) :
    Host.gather d x idx (ix2 b p)
    = x (ix3 b ⟨min (idx (ix2 p (0 : Fin 2))).toInt.toNat (M - 1), by omega⟩
          ⟨min (idx (ix2 p (1 : Fin 2))).toInt.toNat (N - 1), by omega⟩) := by
  unfold Host.gather
  congr 1
  funext a
  have hb : ∀ a : Fin 3, a ∉ d.operandBatchingDims := fun a => by rw [hob]; exact List.not_mem_nil
  match a with
  | ⟨0, _⟩ =>
    -- axis 0 is not start-indexed (start 0) and is the one kept axis: the offset coordinate is the result's on axis 0
    apply Fin.ext
    have hk : (0 : Fin 3) ∈ d.sKept := by
      rw [GatherDims.mem_sKept, hcoll]; exact ⟨by simp, hb 0⟩
    have hm : (0 : Fin 3) ∉ d.startIndexMap := by rw [hsim]; simp
    have key : ∀ (l : List (Fin 2)) (k : Nat) (h : k < l.length), l = [0] →
        ((ix2 b p : (⟨2, ![B, n]⟩ : Shape).Idx) l[k]).val = b.val := fun l k h hl => by
      subst hl
      obtain rfl : k = 0 := by simpa using h
      rfl
    show d.start (ix2 b p) idx 0 + d.batchCoord (ix2 b p) 0 + d.offCoord (ix2 b p) 0 = b.val
    rw [GatherDims.batchCoord_eq_zero _ _ _ (hb 0)]
    unfold GatherDims.start GatherDims.offCoord
    rw [dif_neg hm, dif_pos hk]
    simp only [Nat.add_zero, Nat.zero_add]
    exact key d.offsetDims _ _ hoff
  | ⟨1, _⟩ =>
    -- axis 1 is collapsed (slice of one row, no offset) and start-indexed by component 0 of the index vector
    apply Fin.ext
    have hk : (1 : Fin 3) ∉ d.sKept := by
      rw [GatherDims.mem_sKept, hcoll]; exact fun h => h.1 (by simp)
    have hm : (1 : Fin 3) ∈ d.startIndexMap := by rw [hsim]; simp
    have hsl : d.sliceSizes 1 = 1 := d.slice_collapsed 1 (by rw [hcoll]; simp)
    show d.start (ix2 b p) idx 1 + d.batchCoord (ix2 b p) 1 + d.offCoord (ix2 b p) 1
      = min (idx (ix2 p (0 : Fin 2))).toInt.toNat (M - 1)
    rw [GatherDims.batchCoord_eq_zero _ _ _ (hb 1), GatherDims.offCoord_eq_zero _ _ _ hk]
    simp only [Nat.add_zero]
    unfold GatherDims.start
    rw [dif_pos hm]
    show min (idx _).toInt.toNat (M - d.sliceSizes 1) = min (idx (ix2 p (0 : Fin 2))).toInt.toNat (M - 1)
    rw [hsl, siIdx_pair d hoff hivd b p _ (0 : Fin 2)
      (by show List.idxOf (1 : Fin 3) d.startIndexMap = 0; rw [hsim]; simp)]
  | ⟨2, _⟩ =>
    -- axis 2 is collapsed and start-indexed by component 1 of the index vector
    apply Fin.ext
    have hk : (2 : Fin 3) ∉ d.sKept := by
      rw [GatherDims.mem_sKept, hcoll]; exact fun h => h.1 (by simp)
    have hm : (2 : Fin 3) ∈ d.startIndexMap := by rw [hsim]; simp
    have hsl : d.sliceSizes 2 = 1 := d.slice_collapsed 2 (by rw [hcoll]; simp)
    show d.start (ix2 b p) idx 2 + d.batchCoord (ix2 b p) 2 + d.offCoord (ix2 b p) 2
      = min (idx (ix2 p (1 : Fin 2))).toInt.toNat (N - 1)
    rw [GatherDims.batchCoord_eq_zero _ _ _ (hb 2), GatherDims.offCoord_eq_zero _ _ _ hk]
    simp only [Nat.add_zero]
    unfold GatherDims.start
    rw [dif_pos hm]
    show min (idx _).toInt.toNat (N - d.sliceSizes 2) = min (idx (ix2 p (1 : Fin 2))).toInt.toNat (N - 1)
    rw [hsl, siIdx_pair d hoff hivd b p _ (1 : Fin 2)
      (by show List.idxOf (2 : Fin 3) d.startIndexMap = 1; rw [hsim]; simp)]

end PairGather
-- ==== Proof.RefRead.lean ====
/-
  The reference program's result read at an index: entry `(b, 0)` is the network's output in the reference's
  arrangement of the first layer, over example `b`'s gathered embeddings.
-/
import proofs.«429863_j12421045420605_3_alg».proof.Proof.RefTerm
import proofs.«429863_j12421045420605_3_alg».proof.Proof.Tabs
import proofs.«429863_j12421045420605_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import proofs.«429863_j12421045420605_3_alg».proof.Proof.LibPairGather

noncomputable section

open scoped BigOperators

namespace Cert.ReferenceIdeal.RV

open Idealize.ShloMosaic Idealize.ShloMosaic.ValueIdx Cert.ReferenceIdeal

open Cert.ReferenceIdeal.Facts₀

/-- All inner products at `(b, f, g)`: the sum over the coordinate of the products of the two fields' entries. -/
theorem prodsR_apply (E : FVec Ideal S16384x32x64 .f32) (b : Fin 16384) (f g : Fin 32) :
    prodsR E (ix3 b f g) = ∑ d : Fin 64, E (ix3 b f d) * E (ix3 b g d) := by
  unfold prodsR
  show FloatOps.dotGeneral _ none _ E E (ix3 b f g) = _
  rw [Ideal.dotGeneral_apply,
    ← Equiv.sum_comp (contrEquiv1 dot_S16384x32x64_S16384x32x64_S16384x32x32_2_2_1_1_0_0 64 rfl rfl).symm]
  refine Finset.sum_congr rfl fun c _ => ?_
  have c3 := contrEquiv1_symm_val dot_S16384x32x64_S16384x32x64_S16384x32x32_2_2_1_1_0_0 64 rfl rfl c
  have l3 : dot_S16384x32x64_S16384x32x64_S16384x32x32_2_2_1_1_0_0.lhsIdx (ix3 b f g)
      ((contrEquiv1 _ 64 rfl rfl).symm c) = ix3 b f c := by
    funext ax; apply Fin.ext
    match ax with
    | ⟨0, _⟩ => simp [DotDims.lhsIdx, dot_S16384x32x64_S16384x32x64_S16384x32x32_2_2_1_1_0_0]; rfl
    | ⟨1, _⟩ => simp [DotDims.lhsIdx, dot_S16384x32x64_S16384x32x64_S16384x32x32_2_2_1_1_0_0]; rfl
    | ⟨2, _⟩ => simp [DotDims.lhsIdx, dot_S16384x32x64_S16384x32x64_S16384x32x32_2_2_1_1_0_0]; exact c3
  have r3 : dot_S16384x32x64_S16384x32x64_S16384x32x32_2_2_1_1_0_0.rhsIdx (ix3 b f g)
      ((contrEquiv1 _ 64 rfl rfl).symm c) = ix3 b g c := by
    funext ax; apply Fin.ext
    match ax with
    | ⟨0, _⟩ => simp [DotDims.rhsIdx, dot_S16384x32x64_S16384x32x64_S16384x32x32_2_2_1_1_0_0]; rfl
    | ⟨1, _⟩ => simp [DotDims.rhsIdx, dot_S16384x32x64_S16384x32x64_S16384x32x32_2_2_1_1_0_0]; rfl
    | ⟨2, _⟩ => simp [DotDims.rhsIdx, dot_S16384x32x64_S16384x32x64_S16384x32x32_2_2_1_1_0_0]; exact c3
  rw [l3, r3]

/-- The start indices built from any two 496-entry tables `c`, `c1`: the columns `[496, 1]` of the two tables, each
    under the "negative index" select, side by side. -/
def pairIdxOf (c c1 : IVec S496 32) : IVec S496x2 32 :=
  concatenate S496x2 1
    [⟨S496x1, broadcastInDim S496x1 ![0] bcast_S496_S496x1_0
        (select (constantI S496 1 0#1) (addi c (broadcastInDim S496 ![] bcast_S_S496 (constantI S_ 32 32#32))) c)⟩,
     ⟨S496x1, broadcastInDim S496x1 ![0] bcast_S496_S496x1_0
        (select (constantI S496 1 0#1) (addi c1 (broadcastInDim S496 ![] bcast_S_S496 (constantI S_ 32 32#32))) c1)⟩]
    concatenates_S496x1_S496x1_S496x2_d1

theorem pairIdx_eq : pairIdx = pairIdxOf (fun i => lit0 (S496.rowMajor i)) (fun i => lit1 (S496.rowMajor i)) := rfl

/-- Entry `(p, 0)` is the first table's entry `p`: the select's condition is the zero bit everywhere, so it keeps the table. -/
theorem pairIdxOf_zero (c c1 : IVec S496 32) (p : Fin 496) : pairIdxOf c c1 (ix2 p (0 : Fin 2)) = c (ix1 p) := by
  unfold pairIdxOf
  refine (concatenate_pair_apply_left (s₁ := S496x1) (s₂ := S496x1) (1 : Fin 2) _ _ concatenates_S496x1_S496x1_S496x2_d1
    (ix2 p (0 : Fin 2)) rfl (ix2 p (0 : Fin 1)) (fun a => by match a with | ⟨0, _⟩ => rfl | ⟨1, _⟩ => rfl)).trans ?_
  refine (broadcastInDim_apply (![0] : Fin 1 → Fin 2) bcast_S496_S496x1_0 _ (ix2 p (0 : Fin 1)) (ix1 p)
    (fun a => by match a with | ⟨0, _⟩ => rfl)).trans ?_
  rw [select_apply]
  exact select_zero _ _

/-- Entry `(p, 1)` is the second table's entry `p`. -/
theorem pairIdxOf_one (c c1 : IVec S496 32) (p : Fin 496) : pairIdxOf c c1 (ix2 p (1 : Fin 2)) = c1 (ix1 p) := by
  unfold pairIdxOf
  refine (concatenate_pair_apply_right (s₁ := S496x1) (s₂ := S496x1) (1 : Fin 2) _ _ concatenates_S496x1_S496x1_S496x2_d1
    (ix2 p (1 : Fin 2)) rfl rfl (ix2 p (0 : Fin 1)) (fun a ha => by
      match a with
      | ⟨0, _⟩ => rfl
      | ⟨1, _⟩ => exact absurd rfl ha) rfl).trans ?_
  refine (broadcastInDim_apply (![0] : Fin 1 → Fin 2) bcast_S496_S496x1_0 _ (ix2 p (0 : Fin 1)) (ix1 p)
    (fun a => by match a with | ⟨0, _⟩ => rfl)).trans ?_
  rw [select_apply]
  exact select_zero _ _

/-- Start index `p`'s first component is entry `p` of the first pair table … -/
theorem pairIdx_zero (p : Fin 496) : pairIdx (ix2 p (0 : Fin 2)) = lit0 p := by
  rw [pairIdx_eq, pairIdxOf_zero]
  exact congrArg lit0 (Fin.ext (Shape.rowMajor_val_one (ix1 p)))

/-- … and its second component entry `p` of the second. -/
theorem pairIdx_one (p : Fin 496) : pairIdx (ix2 p (1 : Fin 2)) = lit1 p := by
  rw [pairIdx_eq, pairIdxOf_one]
  exact congrArg lit1 (Fin.ext (Shape.rowMajor_val_one (ix1 p)))

/-- The picked products at `(b, p)`: the entry of `P` at the pair `p`'s two fields. -/
theorem crossR_apply (P : FVec Ideal S16384x32x32 .f32) (b : Fin 16384) (p : Fin 496) :
    crossR P (ix2 b p) = P (ix3 b (PNN.I0R p) (PNN.I1R p)) := by
  unfold crossR
  have e0 : (⟨min (pairIdx (ix2 p (0 : Fin 2))).toInt.toNat (32 - 1), by omega⟩ : Fin 32) = PNN.I0R p := by
    apply Fin.ext
    show min (pairIdx (ix2 p (0 : Fin 2))).toInt.toNat (32 - 1) = _
    rw [pairIdx_zero]; rfl
  have e1 : (⟨min (pairIdx (ix2 p (1 : Fin 2))).toInt.toNat (32 - 1), by omega⟩ : Fin 32) = PNN.I1R p := by
    apply Fin.ext
    show min (pairIdx (ix2 p (1 : Fin 2))).toInt.toNat (32 - 1) = _
    rw [pairIdx_one]; rfl
  exact (PairGather.pairGather_apply gather_S16384x32x32_S496x2_S16384x496_0_12_n_n_12_1_1638411 rfl rfl rfl rfl rfl P pairIdx b p (by decide) (by decide)).trans
    (congrArg₂ (fun u v => P (ix3 b u v)) e0 e1)

/-- The features at `(b, k)`: below 2048 the flattened embeddings' entry `k` (field `k / 64`, coordinate `k % 64`), from
    there on the inner product of the pair `k − 2048`'s two fields. -/
theorem featR_apply (E : FVec Ideal S16384x32x64 .f32) (b : Fin 16384) (k : Fin 2544) :
    featR E (ix2 b k) = PNN.feat (fun f d => E (ix3 b f d)) PNN.I0R PNN.I1R k := by
  unfold featR PNN.feat
  by_cases h : k.val < 2048
  · rw [dif_pos h]
    refine (concatenate_pair_apply_left (s₁ := S16384x2048) (s₂ := S16384x496) (1 : Fin 2) _ _
      concatenates_S16384x2048_S16384x496_S16384x2544_d1 (ix2 b k) rfl (ix2 b (⟨k.val, h⟩ : Fin 2048))
      (fun a => by match a with | ⟨0, _⟩ => rfl | ⟨1, _⟩ => rfl)).trans ?_
    refine (shapeCast_apply E shapeCasts_S16384x32x64_S16384x2048 (ix2 b (⟨k.val, h⟩ : Fin 2048))
      (ix3 b (⟨k.val / 64, by omega⟩ : Fin 32) (⟨k.val % 64, Nat.mod_lt _ (by decide)⟩ : Fin 64)) ?_).trans ?_
    · rw [Shape.rowMajor_val_three, Shape.rowMajor_val_two]
      show (b.val * 32 + k.val / 64) * 64 + k.val % 64 = b.val * 2048 + k.val
      omega
    · rfl
  · rw [dif_neg h]
    have hk : k.val - 2048 < 496 := by have := k.isLt; omega
    refine (concatenate_pair_apply_right (s₁ := S16384x2048) (s₂ := S16384x496) (1 : Fin 2) _ _
      concatenates_S16384x2048_S16384x496_S16384x2544_d1 (ix2 b k) rfl rfl (ix2 b (⟨k.val - 2048, hk⟩ : Fin 496))
      (fun a ha => by
        match a with
        | ⟨0, _⟩ => rfl
        | ⟨1, _⟩ => exact absurd rfl ha) ?_).trans ?_
    · show (k.val - 2048) + 2048 = k.val
      omega
    · rw [crossR_apply, prodsR_apply]
      rfl

/-- The plain product `[16384,2544] × [2544,1024]` at `(b, j)`: the sum over the contracted coordinate. -/
theorem dot1_apply (X : FVec Ideal S16384x2544 .f32) (W : FVec Ideal S2544x1024 .f32) (b : Fin 16384) (j : Fin 1024) :
    Host.dotGeneral dot_S16384x2544_S2544x1024_S16384x1024_1_0_0_1_n_n none X W (ix2 b j) = ∑ k : Fin 2544, X (ix2 b k) * W (ix2 k j) := by
  show FloatOps.dotGeneral _ none _ X W (ix2 b j) = _
  rw [Ideal.dotGeneral_apply, ← Equiv.sum_comp (contrEquiv1 dot_S16384x2544_S2544x1024_S16384x1024_1_0_0_1_n_n 2544 rfl rfl).symm]
  refine Finset.sum_congr rfl fun c _ => ?_
  have c2 := contrEquiv1_symm_val dot_S16384x2544_S2544x1024_S16384x1024_1_0_0_1_n_n 2544 rfl rfl c
  have l2 : dot_S16384x2544_S2544x1024_S16384x1024_1_0_0_1_n_n.lhsIdx (ix2 b j) ((contrEquiv1 _ 2544 rfl rfl).symm c) = ix2 b c := by
    funext ax; apply Fin.ext
    match ax with
    | ⟨0, _⟩ => simp [DotDims.lhsIdx, dot_S16384x2544_S2544x1024_S16384x1024_1_0_0_1_n_n]; rfl
    | ⟨1, _⟩ => simp [DotDims.lhsIdx, dot_S16384x2544_S2544x1024_S16384x1024_1_0_0_1_n_n]; exact c2
  have r2 : dot_S16384x2544_S2544x1024_S16384x1024_1_0_0_1_n_n.rhsIdx (ix2 b j) ((contrEquiv1 _ 2544 rfl rfl).symm c) = ix2 c j := by
    funext ax; apply Fin.ext
    match ax with
    | ⟨0, _⟩ => simp [DotDims.rhsIdx, dot_S16384x2544_S2544x1024_S16384x1024_1_0_0_1_n_n]; exact c2
    | ⟨1, _⟩ => simp [DotDims.rhsIdx, dot_S16384x2544_S2544x1024_S16384x1024_1_0_0_1_n_n]; rfl
  rw [l2, r2]

/-- The plain product `[16384,1024] × [1024,512]` at `(b, j)`: the sum over the contracted coordinate. -/
theorem dot2_apply (X : FVec Ideal S16384x1024 .f32) (W : FVec Ideal S1024x512 .f32) (b : Fin 16384) (j : Fin 512) :
    Host.dotGeneral dot_S16384x1024_S1024x512_S16384x512_1_0_0_1_n_n none X W (ix2 b j) = ∑ k : Fin 1024, X (ix2 b k) * W (ix2 k j) := by
  show FloatOps.dotGeneral _ none _ X W (ix2 b j) = _
  rw [Ideal.dotGeneral_apply, ← Equiv.sum_comp (contrEquiv1 dot_S16384x1024_S1024x512_S16384x512_1_0_0_1_n_n 1024 rfl rfl).symm]
  refine Finset.sum_congr rfl fun c _ => ?_
  have c2 := contrEquiv1_symm_val dot_S16384x1024_S1024x512_S16384x512_1_0_0_1_n_n 1024 rfl rfl c
  have l2 : dot_S16384x1024_S1024x512_S16384x512_1_0_0_1_n_n.lhsIdx (ix2 b j) ((contrEquiv1 _ 1024 rfl rfl).symm c) = ix2 b c := by
    funext ax; apply Fin.ext
    match ax with
    | ⟨0, _⟩ => simp [DotDims.lhsIdx, dot_S16384x1024_S1024x512_S16384x512_1_0_0_1_n_n]; rfl
    | ⟨1, _⟩ => simp [DotDims.lhsIdx, dot_S16384x1024_S1024x512_S16384x512_1_0_0_1_n_n]; exact c2
  have r2 : dot_S16384x1024_S1024x512_S16384x512_1_0_0_1_n_n.rhsIdx (ix2 b j) ((contrEquiv1 _ 1024 rfl rfl).symm c) = ix2 c j := by
    funext ax; apply Fin.ext
    match ax with
    | ⟨0, _⟩ => simp [DotDims.rhsIdx, dot_S16384x1024_S1024x512_S16384x512_1_0_0_1_n_n]; exact c2
    | ⟨1, _⟩ => simp [DotDims.rhsIdx, dot_S16384x1024_S1024x512_S16384x512_1_0_0_1_n_n]; rfl
  rw [l2, r2]

/-- The plain product `[16384,512] × [512,1]` at `(b, j)`: the sum over the contracted coordinate. -/
theorem dot3_apply (X : FVec Ideal S16384x512 .f32) (W : FVec Ideal S512x1 .f32) (b : Fin 16384) (j : Fin 1) :
    Host.dotGeneral dot_S16384x512_S512x1_S16384x1_1_0_0_1_n_n none X W (ix2 b j) = ∑ k : Fin 512, X (ix2 b k) * W (ix2 k j) := by
  show FloatOps.dotGeneral _ none _ X W (ix2 b j) = _
  rw [Ideal.dotGeneral_apply, ← Equiv.sum_comp (contrEquiv1 dot_S16384x512_S512x1_S16384x1_1_0_0_1_n_n 512 rfl rfl).symm]
  refine Finset.sum_congr rfl fun c _ => ?_
  have c2 := contrEquiv1_symm_val dot_S16384x512_S512x1_S16384x1_1_0_0_1_n_n 512 rfl rfl c
  have l2 : dot_S16384x512_S512x1_S16384x1_1_0_0_1_n_n.lhsIdx (ix2 b j) ((contrEquiv1 _ 512 rfl rfl).symm c) = ix2 b c := by
    funext ax; apply Fin.ext
    match ax with
    | ⟨0, _⟩ => simp [DotDims.lhsIdx, dot_S16384x512_S512x1_S16384x1_1_0_0_1_n_n]; rfl
    | ⟨1, _⟩ => simp [DotDims.lhsIdx, dot_S16384x512_S512x1_S16384x1_1_0_0_1_n_n]; exact c2
  have r2 : dot_S16384x512_S512x1_S16384x1_1_0_0_1_n_n.rhsIdx (ix2 b j) ((contrEquiv1 _ 512 rfl rfl).symm c) = ix2 c j := by
    funext ax; apply Fin.ext
    match ax with
    | ⟨0, _⟩ => simp [DotDims.rhsIdx, dot_S16384x512_S512x1_S16384x1_1_0_0_1_n_n]; exact c2
    | ⟨1, _⟩ => simp [DotDims.rhsIdx, dot_S16384x512_S512x1_S16384x1_1_0_0_1_n_n]
  rw [l2, r2]

/-- A bias `[n]` broadcast to `[1, n]` and then to `[16384, n]`, read at `(b, j)`, is the bias at `j`. -/
theorem bias1_apply (a3 : FVec Ideal S1024 .f32) (b : Fin 16384) (j : Fin 1024) :
    broadcastInDim S16384x1024 ![0, 1] bcast_S1x1024_S16384x1024_0_1 (broadcastInDim S1x1024 ![1] bcast_S1024_S1x1024_1 a3) (ix2 b j)
      = a3 (ix1 j) :=
  (broadcastInDim_apply (![0, 1] : Fin 2 → Fin 2) bcast_S1x1024_S16384x1024_0_1 _ (ix2 b j) (ix2 (0 : Fin 1) j)
    (fun a => by match a with | ⟨0, _⟩ => rfl | ⟨1, _⟩ => rfl)).trans
  (broadcastInDim_apply (![1] : Fin 1 → Fin 2) bcast_S1024_S1x1024_1 a3 (ix2 (0 : Fin 1) j) (ix1 j)
    (fun a => by match a with | ⟨0, _⟩ => rfl))

theorem bias2_apply (a5 : FVec Ideal S512 .f32) (b : Fin 16384) (k : Fin 512) :
    broadcastInDim S16384x512 ![0, 1] bcast_S1x512_S16384x512_0_1 (broadcastInDim S1x512 ![1] bcast_S512_S1x512_1 a5) (ix2 b k)
      = a5 (ix1 k) :=
  (broadcastInDim_apply (![0, 1] : Fin 2 → Fin 2) bcast_S1x512_S16384x512_0_1 _ (ix2 b k) (ix2 (0 : Fin 1) k)
    (fun a => by match a with | ⟨0, _⟩ => rfl | ⟨1, _⟩ => rfl)).trans
  (broadcastInDim_apply (![1] : Fin 1 → Fin 2) bcast_S512_S1x512_1 a5 (ix2 (0 : Fin 1) k) (ix1 k)
    (fun a => by match a with | ⟨0, _⟩ => rfl))

theorem bias3_apply (a7 : FVec Ideal S1 .f32) (b : Fin 16384) :
    broadcastInDim S16384x1 ![0, 1] bcast_S1x1_S16384x1_0_1 (broadcastInDim S1x1 ![1] bcast_S1_S1x1_1 a7) (ix2 b (0 : Fin 1))
      = a7 (ix1 (0 : Fin 1)) :=
  (broadcastInDim_apply (![0, 1] : Fin 2 → Fin 2) bcast_S1x1_S16384x1_0_1 _ (ix2 b (0 : Fin 1)) (ix2 (0 : Fin 1) (0 : Fin 1))
    (fun a => by match a with | ⟨0, _⟩ => rfl | ⟨1, _⟩ => rfl)).trans
  (broadcastInDim_apply (![1] : Fin 1 → Fin 2) bcast_S1_S1x1_1 a7 (ix2 (0 : Fin 1) (0 : Fin 1)) (ix1 (0 : Fin 1))
    (fun a => by match a with | ⟨0, _⟩ => rfl))

/-- The first layer after its relu at `(b, j)`. -/
theorem h1R_apply (X : FVec Ideal S16384x2544 .f32) (a2 : FVec Ideal S2544x1024 .f32) (a3 : FVec Ideal S1024 .f32)
    (b : Fin 16384) (j : Fin 1024) :
    h1R X a2 a3 (ix2 b j) = max ((∑ k : Fin 2544, X (ix2 b k) * a2 (ix2 k j)) + a3 (ix1 j)) 0 := by
  unfold h1R
  rw [maximumf_apply, addf_apply, dot1_apply, bias1_apply, broadcastInDim_scalar_apply, constant_apply, Ideal.ofBits_zero_f32]

/-- The second layer after its relu at `(b, k)`. -/
theorem h2R_apply (H : FVec Ideal S16384x1024 .f32) (a4 : FVec Ideal S1024x512 .f32) (a5 : FVec Ideal S512 .f32)
    (b : Fin 16384) (k : Fin 512) :
    h2R H a4 a5 (ix2 b k) = max ((∑ j : Fin 1024, H (ix2 b j) * a4 (ix2 j k)) + a5 (ix1 k)) 0 := by
  unfold h2R
  rw [maximumf_apply, addf_apply, dot2_apply, bias2_apply, broadcastInDim_scalar_apply, constant_apply, Ideal.ofBits_zero_f32]

/-- The last layer at `(b, 0)`. -/
theorem logitR_apply (H : FVec Ideal S16384x512 .f32) (a6 : FVec Ideal S512x1 .f32) (a7 : FVec Ideal S1 .f32)
    (b : Fin 16384) :
    logitR H a6 a7 (ix2 b (0 : Fin 1)) = (∑ k : Fin 512, H (ix2 b k) * a6 (ix2 k (0 : Fin 1))) + a7 (ix1 (0 : Fin 1)) := by
  unfold logitR
  rw [addf_apply, dot3_apply, bias3_apply]

/-- `1 / (1 + exp (−x))` spelt with the host's operations is the logistic function at every element. -/
theorem sigR_apply (X : FVec Ideal S16384x1 .f32) (i : S16384x1.Idx) : sigR X i = Ideal.logistic (X i) := by
  unfold sigR
  rw [hostDivf_apply, addf_apply, broadcastInDim_scalar_apply, constant_apply, Ideal.ofBits_one_f32]
  rfl

/-- The reference's result at `(b, 0)`: the network's output over example `b`'s gathered embeddings. -/
theorem refOut_apply_row (a0 : IVec S16384x32 32) (a1 : FVec Ideal S32x100000x64 .f32) (a2 : FVec Ideal S2544x1024 .f32)
    (a3 : FVec Ideal S1024 .f32) (a4 : FVec Ideal S1024x512 .f32) (a5 : FVec Ideal S512 .f32)
    (a6 : FVec Ideal S512x1 .f32) (a7 : FVec Ideal S1 .f32) (b : Fin 16384) :
    refOut a0 a1 a2 a3 a4 a5 a6 a7 (ix2 b (0 : Fin 1))
    = PNN.head
        (PNN.layer1R (fun f d => embR a0 a1 (ix3 b f d))
          (fun k j => a2 (ix2 k j)) (fun j => a3 (ix1 j)) PNN.I0R PNN.I1R)
        (fun j k => a4 (ix2 j k)) (fun k => a5 (ix1 k)) (fun k => a6 (ix2 k (0 : Fin 1))) (a7 (ix1 (0 : Fin 1))) := by
  unfold refOut
  rw [sigR_apply, logitR_apply]
  simp only [h2R_apply, h1R_apply, featR_apply]
  rfl

/-- The reference's result at any index `i = (b, 0)`. -/
theorem refOut_apply (a0 : IVec S16384x32 32) (a1 : FVec Ideal S32x100000x64 .f32) (a2 : FVec Ideal S2544x1024 .f32)
    (a3 : FVec Ideal S1024 .f32) (a4 : FVec Ideal S1024x512 .f32) (a5 : FVec Ideal S512 .f32)
    (a6 : FVec Ideal S512x1 .f32) (a7 : FVec Ideal S1 .f32) (i : S16384x1.Idx) :
    refOut a0 a1 a2 a3 a4 a5 a6 a7 i
    = PNN.head
        (PNN.layer1R (fun f d => embR a0 a1 (ix3 (⟨(i 0).val, idx2_lt0 i⟩ : Fin 16384) f d))
          (fun k j => a2 (ix2 k j)) (fun j => a3 (ix1 j)) PNN.I0R PNN.I1R)
        (fun j k => a4 (ix2 j k)) (fun k => a5 (ix1 k)) (fun k => a6 (ix2 k (0 : Fin 1))) (a7 (ix1 (0 : Fin 1))) := by
  have hi : i = ix2 (⟨(i 0).val, idx2_lt0 i⟩ : Fin 16384) (0 : Fin 1) := by
    funext a
    match a with
    | ⟨0, _⟩ => rfl
    | ⟨1, _⟩ => exact Fin.ext (Nat.lt_one_iff.mp (idx2_lt1 i))
  exact (congrArg (refOut a0 a1 a2 a3 a4 a5 a6 a7) hi).trans (refOut_apply_row a0 a1 a2 a3 a4 a5 a6 a7 _)

end Cert.ReferenceIdeal.RV

end
-- ==== Proof.PairSum.lean ====
/-
  The two arrangements of the first layer are one sum.

  The reference sums 2544 features against the rows of one matrix: the 2048 flattened embedding entries, then
  the inner products of the 496 pairs of fields `I0 p < I1 p`. The kernel sums the flattened entries against
  the first 2048 rows and 512 rolled inner products `⟨e_a, e_{(a + o) mod 32}⟩` against row `2048 + P q` of the
  matrix times the mask `Mk q`. When the mask is 0 or 1, a masked-in `q` names the pair `P q` (in either
  order: an inner product is symmetric), and `P` is a bijection from the masked-in `q` onto the 496 pairs
  (with inverse `Q`), the masked-out terms vanish, the rest re-index, and a sum over 2544 splits at 2048.
  Only commutativity and associativity of `+` and `*` on the extended reals and `x * 0 = 0`, `x * 1 = x`
  are used: no finiteness.
-/
import Mathlib.Algebra.BigOperators.Fin
import proofs.«429863_j12421045420605_3_alg».proof.Proof.Spec

noncomputable section

open scoped BigOperators

namespace PNN

/-- An inner product does not depend on the order of its two fields. -/
private theorem ip_comm (e : Fin 32 → Fin 64 → EReal) (f g : Fin 32) : ip e f g = ip e g f := by
  unfold ip
  exact Finset.sum_congr rfl (fun d _ => mul_comm _ _)

/-- Below 2048 a feature is a flattened entry. -/
private theorem feat_low (e : Fin 32 → Fin 64 → EReal) (I0 I1 : Fin 496 → Fin 32) (k : Fin 2048) :
    feat e I0 I1 ⟨k.val, by have := k.isLt; omega⟩ = flat e k := by
  unfold feat
  rw [dif_pos (show (⟨k.val, _⟩ : Fin 2544).val < 2048 from k.isLt)]

/-- From 2048 on a feature is the inner product of a pair. -/
private theorem feat_high (e : Fin 32 → Fin 64 → EReal) (I0 I1 : Fin 496 → Fin 32) (p : Fin 496) :
    feat e I0 I1 ⟨2048 + p.val, by have := p.isLt; omega⟩ = ip e (I0 p) (I1 p) := by
  unfold feat
  rw [dif_neg (show ¬ (⟨2048 + p.val, _⟩ : Fin 2544).val < 2048 from by simp)]
  have hp : (⟨(⟨2048 + p.val, by have := p.isLt; omega⟩ : Fin 2544).val - 2048,
      by have := p.isLt; simp⟩ : Fin 496) = p := by
    apply Fin.ext
    simp
  rw [hp]

theorem layer1_bridge (e : Fin 32 → Fin 64 → EReal) (W1 : Fin 2544 → Fin 1024 → EReal) (b1 : Fin 1024 → EReal)
    (P : Fin 512 → Fin 496) (Mk : Fin 512 → EReal) (I0 I1 : Fin 496 → Fin 32) (Q : Fin 496 → Fin 512)
    (hM : ∀ q, Mk q = 1 ∨ Mk q = 0)
    (hpair : ∀ q, Mk q = 1 → (I0 (P q) = rollA q ∧ I1 (P q) = rollB q) ∨ (I0 (P q) = rollB q ∧ I1 (P q) = rollA q))
    (hQ1 : ∀ p, Mk (Q p) = 1 ∧ P (Q p) = p) (hQ2 : ∀ q, Mk q = 1 → Q (P q) = q) (j : Fin 1024) :
    layer1K e (fun k j => W1 ⟨k.val, by have := k.isLt; omega⟩ j)
      (fun q j => W1 ⟨2048 + (P q).val, by have := (P q).isLt; omega⟩ j * Mk q) b1 j
    = layer1R e W1 b1 I0 I1 j := by
  classical
  -- the row of the matrix that belongs to the pair `p`
  let Wp : Fin 496 → EReal := fun p => W1 ⟨2048 + p.val, by have := p.isLt; omega⟩ j
  -- the kernel's term at the rolled product `q`
  let g : Fin 512 → EReal := fun q => ip e (rollA q) (rollB q) * (Wp (P q) * Mk q)
  -- `Q` is injective, having `P` as a left inverse
  have hQinj : Function.Injective Q := fun p p' h => by
    have h' := congrArg P h
    rwa [(hQ1 p).2, (hQ1 p').2] at h'
  -- a masked-out term vanishes
  have hg0 : ∀ q, Mk q ≠ 1 → g q = 0 := fun q hq => by
    have h0 : Mk q = 0 := (hM q).resolve_left hq
    simp only [g, h0, mul_zero]
  -- the term at `Q p` is the reference's term of the pair `p`
  have hg1 : ∀ p, g (Q p) = ip e (I0 p) (I1 p) * Wp p := fun p => by
    obtain ⟨h1, h2⟩ := hQ1 p
    have hp := hpair (Q p) h1
    rw [h2] at hp
    simp only [g, h1, h2, mul_one]
    rcases hp with ⟨a, b⟩ | ⟨a, b⟩
    · rw [a, b]
    · rw [a, b, ip_comm]
  -- the 512 rolled terms are the 496 pair terms
  have hK : ∑ q : Fin 512, g q = ∑ p : Fin 496, ip e (I0 p) (I1 p) * Wp p := by
    rw [← Finset.sum_subset (Finset.subset_univ (Finset.univ.image Q))]
    · rw [Finset.sum_image (fun a _ b _ h => hQinj h)]
      exact Finset.sum_congr rfl (fun p _ => hg1 p)
    · intro q _ hq
      apply hg0
      intro h1
      exact hq (Finset.mem_image.mpr ⟨P q, Finset.mem_univ _, hQ2 q h1⟩)
  -- the reference's sum splits at 2048
  have hR : ∑ k : Fin 2544, feat e I0 I1 k * W1 k j
      = (∑ k : Fin 2048, flat e k * W1 ⟨k.val, by have := k.isLt; omega⟩ j)
        + ∑ p : Fin 496, ip e (I0 p) (I1 p) * Wp p := by
    have h := Fin.sum_univ_add (a := 2048) (b := 496)
      (fun k : Fin (2048 + 496) => feat e I0 I1 k * W1 k j)
    refine h.trans ?_
    refine congrArg₂ (· + ·) ?_ ?_
    · refine Finset.sum_congr rfl (fun k _ => ?_)
      exact congrArg (· * _) (feat_low e I0 I1 k)
    · refine Finset.sum_congr rfl (fun p _ => ?_)
      exact congrArg (· * _) (feat_high e I0 I1 p)
  unfold layer1K layer1R
  rw [hR]
  congr 1
  congr 1

end PNN

end
-- ==== Proof.Tables.lean ====
/-
  The programs' own tables satisfy what the re-indexing of the first layer needs: the kernel's mask is 0 or 1,
  a masked-in entry `q` of its row table names the reference's pair of the fields `q % 32` and
  `(q % 32 + q / 32 + 1) % 32`, and the row table is a bijection from the masked-in entries onto the 496 pairs.
  All of it is decided on the 512 and 496 literal entries.
-/
import Idealize.ShloMosaic.Lib.Decide
import Idealize.ShloMosaic.Lib.IdealHost
import Idealize.ShloMosaic.PureOps.Ideal.Laws
import proofs.«429863_j12421045420605_3_alg».proof.Proof.Tabs
import proofs.«429863_j12421045420605_3_alg».proof.Proof.PairSum

noncomputable section

namespace PNN

open Idealize.ShloMosaic

/-- The rolled product that computes the pair `p` of the fields `i < j`: the offset `j - i` from `i` when that is
    at most 16 (entry `32 (j - i - 1) + i`), else the offset `32 - (j - i)` from `j`, which wraps round to `i`
    (entry `32 (32 - (j - i) - 1) + j`). -/
private def QK (p : Fin 496) : Fin 512 :=
  ⟨(if (I1R p).val - (I0R p).val ≤ 16 then 32 * ((I1R p).val - (I0R p).val - 1) + (I0R p).val
      else 32 * (32 - ((I1R p).val - (I0R p).val) - 1) + (I1R p).val) % 512, Nat.mod_lt _ (by decide)⟩

/-- Every entry of the kernel's mask table is the pattern of the float one or of the float zero. -/
private theorem mask_bits : ∀ q : Fin 512,
    Cert.KernelIdeal.lit1 q = 0x3F800000#32 ∨ Cert.KernelIdeal.lit1 q = 0x00000000#32 := by
  decide +kernel

/-- A masked-in entry `q` of the kernel's row table is the reference's number of the pair of the fields
    `q % 32` and `(q % 32 + q / 32 + 1) % 32`, whichever of the two is the smaller. -/
private theorem pair_bits : ∀ q : Fin 512, Cert.KernelIdeal.lit1 q = 0x3F800000#32 →
    (I0R (PK q) = rollA q ∧ I1R (PK q) = rollB q) ∨ (I0R (PK q) = rollB q ∧ I1R (PK q) = rollA q) := by
  decide +kernel

/-- The entry `QK p` is masked in and holds `p`. -/
private theorem inv_right_bits : ∀ p : Fin 496,
    Cert.KernelIdeal.lit1 (QK p) = 0x3F800000#32 ∧ PK (QK p) = p := by
  decide +kernel

/-- A masked-in entry `q` is the entry `QK` gives for the pair it holds. -/
private theorem inv_left_bits : ∀ q : Fin 512, Cert.KernelIdeal.lit1 q = 0x3F800000#32 → QK (PK q) = q := by
  decide +kernel

/-- The pattern of the float one is read as the extended real one. -/
private theorem MK_of_one (q : Fin 512) (h : Cert.KernelIdeal.lit1 q = 0x3F800000#32) : MK q = 1 := by
  unfold MK
  rw [h]
  exact Ideal.ofBits_one_f32

/-- The pattern of the float zero is read as the extended real zero. -/
private theorem MK_of_zero (q : Fin 512) (h : Cert.KernelIdeal.lit1 q = 0x00000000#32) : MK q = 0 := by
  unfold MK
  rw [h]
  exact Ideal.ofBits_zero_f32

/-- An entry whose mask is one carries the pattern of the float one: the only other pattern is read as zero. -/
private theorem bits_of_MK_one (q : Fin 512) (h : MK q = 1) : Cert.KernelIdeal.lit1 q = 0x3F800000#32 := by
  rcases mask_bits q with h1 | h0
  · exact h1
  · rw [MK_of_zero q h0] at h
    exact absurd h zero_ne_one

/-- The two arrangements of the first layer agree at the programs' own tables. -/
theorem layer1_tables (e : Fin 32 → Fin 64 → EReal) (W1 : Fin 2544 → Fin 1024 → EReal) (b1 : Fin 1024 → EReal) (j : Fin 1024) :
    layer1K e (fun k j => W1 ⟨k.val, by have := k.isLt; omega⟩ j)
      (fun q j => W1 ⟨2048 + (PK q).val, by have := (PK q).isLt; omega⟩ j * MK q) b1 j
    = layer1R e W1 b1 I0R I1R j :=
  layer1_bridge e W1 b1 PK MK I0R I1R QK
    (fun q => (mask_bits q).imp (MK_of_one q) (MK_of_zero q))
    (fun q h => pair_bits q (bits_of_MK_one q h))
    (fun p => ⟨MK_of_one _ (inv_right_bits p).1, (inv_right_bits p).2⟩)
    (fun q h => inv_left_bits q (bits_of_MK_one q h)) j

end PNN

end
-- ==== Proof.lean ====
/-
  The kernel gathers each example's 32 embeddings, and for every circular offset o = 1 … 16 forms the inner products
  of field a with field (a + o) mod 32; these 512 numbers meet a copy of the last 496 rows of the first layer's
  matrix that is re-ordered by a table and masked (the offset 16 names every pair twice; the second copy is
  multiplied by zero). The reference forms all 32 × 32 inner products, picks the 496 with f < g, and multiplies the
  2048 + 496 features with the one matrix. Both then apply relu, the second layer, relu, the last layer and the
  logistic function. At the ideal values the two first layers are one sum: a sum over 2544 indices splits at
  2048, the masked-out terms vanish, and the masked-in ones are the 496 pairs re-ordered (an inner product is
  symmetric). Nothing in this uses finiteness: only commutativity and associativity of + and · on the extended
  reals, x · 0 = 0 and x · 1 = x. The logistic function of the kernel is by definition the reference's
  1 / (1 + exp (−x)).

  The kernel program's value is read off its frame run block by block; the reference's run is its 63 host
  operations in order; the two results are compared entry by entry.
-/
import proofs.«429863_j12421045420605_3_alg».proof.Defs
import proofs.«429863_j12421045420605_3_alg».proof.Proof.Gen.Kernel
import proofs.«429863_j12421045420605_3_alg».proof.Proof.Gen.Kernel.Skeleton
import proofs.«429863_j12421045420605_3_alg».proof.Proof.Gen.Kernel.Launch
import proofs.«429863_j12421045420605_3_alg».proof.Proof.Gen.Kernel.Points
import proofs.«429863_j12421045420605_3_alg».proof.Proof.Gen.Kernel.Frame
import proofs.«429863_j12421045420605_3_alg».proof.Proof.Gen.KernelIdeal
import proofs.«429863_j12421045420605_3_alg».proof.Proof.Gen.KernelIdeal.Skeleton
import proofs.«429863_j12421045420605_3_alg».proof.Proof.Gen.KernelIdeal.Launch
import proofs.«429863_j12421045420605_3_alg».proof.Proof.Gen.KernelIdeal.Points
import proofs.«429863_j12421045420605_3_alg».proof.Proof.Gen.KernelIdeal.Frame
import proofs.«429863_j12421045420605_3_alg».proof.Proof.Gen.ReferenceIdeal
import proofs.«429863_j12421045420605_3_alg».proof.Proof.Gen.Pre_finite_inputs
import proofs.«429863_j12421045420605_3_alg».proof.Proof.KernelRun
import proofs.«429863_j12421045420605_3_alg».proof.Proof.RefRun
import proofs.«429863_j12421045420605_3_alg».proof.Proof.RefRead
import proofs.«429863_j12421045420605_3_alg».proof.Proof.Tables
import Idealize.ShloMosaic.Adequacy
import Idealize.ShloMosaic.Init

noncomputable section

namespace Cert.Proof

open Idealize.ShloMosaic Idealize.ShloMosaic.ValueIdx Idealize.SL.Sem

/-- The two programs gather the same embeddings: the same gather at the same start indices. -/
theorem emb_eq (a0 : IVec Cert.KernelIdeal.S16384x32 32) (a1 : FVec Ideal Cert.KernelIdeal.S32x100000x64 .f32) :
    Cert.ReferenceIdeal.RV.embR a0 a1 = Cert.KernelIdeal.KV.embK a0 a1 := rfl

/-- Entry by entry the reference's result is the kernel program's. -/
theorem out_eq (a0 : IVec Cert.KernelIdeal.S16384x32 32) (a1 : FVec Ideal Cert.KernelIdeal.S32x100000x64 .f32)
    (a2 : FVec Ideal Cert.KernelIdeal.S2544x1024 .f32) (a3 : FVec Ideal Cert.KernelIdeal.S1024 .f32)
    (a4 : FVec Ideal Cert.KernelIdeal.S1024x512 .f32) (a5 : FVec Ideal Cert.KernelIdeal.S512 .f32)
    (a6 : FVec Ideal Cert.KernelIdeal.S512x1 .f32) (a7 : FVec Ideal Cert.KernelIdeal.S1 .f32) :
    Cert.ReferenceIdeal.RV.refOut a0 a1 a2 a3 a4 a5 a6 a7 = Cert.KernelIdeal.KV.kerOut a0 a1 a2 a3 a4 a5 a6 a7 := by
  funext i
  rw [Cert.ReferenceIdeal.RV.refOut_apply]
  unfold Cert.KernelIdeal.KV.kerOut
  rw [emb_eq]
  congr 1
  funext j
  exact (PNN.layer1_tables _ (fun k j => a2 (ix2 k j)) _ j).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RV.run m ρ)

theorem algebraic : Cert.algebraic_KernelIdeal_ReferenceIdeal := by
  intro m ρ m' ρ' _ hagree
  refine ⟨fun c => Cert.KernelIdeal.KV.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.KV.run m ρ, ?_⟩
  refine (θ_run Cert.ReferenceIdeal.defs _ _).mono (fun _ h c => ⟨(h c).1.trans ?_, (h c).2⟩) (Cert.ReferenceIdeal.RV.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact out_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
